-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2x32000000 : Shape := ⟨2, ![2, 32000000]⟩
abbrev S3x8 : Shape := ⟨2, ![3, 8]⟩
abbrev S8 : Shape := ⟨1, ![8]⟩
abbrev S8x2 : Shape := ⟨2, ![8, 2]⟩
abbrev S2 : Shape := ⟨1, ![2]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S3x8 : S_.BroadcastsInDim S3x8 (![] : Fin 0 → Fin S3x8.rank)
  reducesTo_S3x8_S_d0_1 : S3x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S8x2 1) : IVec S_ 1 :=
  let main_c_5 : IVec S_ 1 := constantI S_ 1 1#1
  let main_v17 : IVec S_ 1 := (fun x v => Host.reduce IntOp.andi x v reducesTo_S8x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x3 .f32) (main_arg1 : IVec S2x32000000 32) (main_arg2 : FVec F S3x8 .f32) (main_arg3 : FVec F S8 .f32) (main_arg4 : FVec F S8x2 .f32) (main_arg5 : FVec F S2 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S3x8 .f32 := Host.absf main_arg2
  let main_cst_0 : FVec F S_ .f32 := constant S_ .f32 0x7F800000#32
  let main_v5 : FVec F S3x8 .f32 := broadcastInDim S3x8 ![] bcast_S_S3x8 main_cst_0
  let main_v6 : IVec S3x8 1 := cmpf .olt main_v4 main_v5
  let main_c_1 : IVec S_ 1 := constantI S_ 1 1#1
  let main_v7 : IVec S_ 1 := (fun x v => Host.reduce IntOp.andi x v reducesTo_S3x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x2 .f32 := Host.absf main_arg4
  let main_cst_4 : FVec F S_ .f32 := constant S_ .f32 0x7F800000#32
  let main_v15 : FVec F S8x2 .f32 := broadcastInDim S8x2 ![] bcast_S_S8x2 main_cst_4
  let main_v16 : IVec S8x2 1 := cmpf .olt main_v14 main_v15
  fn_part1 (F := F) main_arg5 main_v13 main_v16
-- ==== Kernel.lean ====
abbrev S1000000x3 : Shape := ⟨2, ![1000000, 3]⟩
abbrev S2x32000000 : Shape := ⟨2, ![2, 32000000]⟩
abbrev S3x8 : Shape := ⟨2, ![3, 8]⟩
abbrev S8 : Shape := ⟨1, ![8]⟩
abbrev S8x2 : Shape := ⟨2, ![8, 2]⟩
abbrev S2 : Shape := ⟨1, ![2]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S1000000x8 : Shape := ⟨2, ![1000000, 8]⟩
abbrev S10000x3 : Shape := ⟨2, ![10000, 3]⟩
abbrev S10000x8 : Shape := ⟨2, ![10000, 8]⟩
abbrev S33000000x8 : Shape := ⟨2, ![33000000, 8]⟩
abbrev S1x8 : Shape := ⟨2, ![1, 8]⟩
abbrev S1000000x2 : Shape := ⟨2, ![1000000, 2]⟩
abbrev S10000x2 : Shape := ⟨2, ![10000, 2]⟩
abbrev S33000000x2 : Shape := ⟨2, ![33000000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 80
  | .vmem => 20
  | .smem => 0
  | _ => 0

abbrev bufTy : (tb : Table) → Fin (tcTables nBuf tb) → BufTy
  | .hbm, ⟨0, _⟩ => ⟨S1000000x3, .f32⟩
  | .hbm, ⟨1, _⟩ => ⟨S2x32000000, .i32⟩
  | .hbm, ⟨2, _⟩ => ⟨S3x8, .f32⟩
  | .hbm, ⟨3, _⟩ => ⟨S8, .f32⟩
  | .hbm, ⟨4, _⟩ => ⟨S8x2, .f32⟩
  | .hbm, ⟨5, _⟩ => ⟨S2, .f32⟩
  | .hbm, ⟨6, _⟩ => ⟨S1000000, .i32⟩
  | .hbm, ⟨7, _⟩ => ⟨S1x32000000, .i32⟩
  | .hbm, ⟨8, _⟩ => ⟨S32000000, .i32⟩
  | .hbm, ⟨9, _⟩ => ⟨S33000000, .i32⟩
  | .hbm, ⟨10, _⟩ => ⟨S1x32000000, .i32⟩
  | .hbm, ⟨11, _⟩ => ⟨S32000000, .i32⟩
  | .hbm, ⟨12, _⟩ => ⟨S33000000, .i32⟩
  | .hbm, ⟨13, _⟩ => ⟨S_, .f32⟩
  | .hbm, ⟨14, _⟩ => ⟨S33000000, .f32⟩
  | .hbm, ⟨15, _⟩ => ⟨S_, .f32⟩
  | .hbm, ⟨16, _⟩ => ⟨S1000000, .f32⟩
  | .hbm, ⟨17, _⟩ => ⟨S33000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .f32⟩
  | .hbm, ⟨22, _⟩ => ⟨S1000000, .f32⟩
  | .hbm, ⟨23, _⟩ => ⟨S_, .i32⟩
  | .hbm, ⟨24, _⟩ => ⟨S33000000, .i32⟩
  | .hbm, ⟨25, _⟩ => ⟨S33000000, .i1⟩
  | .hbm, ⟨26, _⟩ => ⟨S_, .i32⟩
  | .hbm, ⟨27, _⟩ => ⟨S33000000, .i32⟩
  | .hbm, ⟨28, _⟩ => ⟨S33000000, .i32⟩
  | .hbm, ⟨29, _⟩ => ⟨S33000000, .i32⟩
  | .hbm, ⟨30, _⟩ => ⟨S33000000x1, .i32⟩
  | .hbm, ⟨31, _⟩ => ⟨S33000000, .f32⟩
  | .hbm, ⟨32, _⟩ => ⟨S_, .i32⟩
  | .hbm, ⟨33, _⟩ => ⟨S33000000, .i32⟩
  | .hbm, ⟨34, _⟩ => ⟨S33000000, .i1⟩
  | .hbm, ⟨35, _⟩ => ⟨S_, .i32⟩
  | .hbm, ⟨36, _⟩ => ⟨S33000000, .i32⟩
  | .hbm, ⟨37, _⟩ => ⟨S33000000, .i32⟩
  | .hbm, ⟨38, _⟩ => ⟨S33000000, .i32⟩
  | .hbm, ⟨39, _⟩ => ⟨S33000000x1, .i32⟩
  | .hbm, ⟨40, _⟩ => ⟨S33000000, .f32⟩
  | .hbm, ⟨41, _⟩ => ⟨S33000000, .f32⟩
  | .hbm, ⟨42, _⟩ => ⟨S1000000x8, .f32⟩
  | .hbm, ⟨43, _⟩ => ⟨S_, .i32⟩
  | .hbm, ⟨44, _⟩ => ⟨S33000000, .i32⟩
  | .hbm, ⟨45, _⟩ => ⟨S33000000, .i1⟩
  | .hbm, ⟨46, _⟩ => ⟨S_, .i32⟩
  | .hbm, ⟨47, _⟩ => ⟨S33000000, .i32⟩
  | .hbm, ⟨48, _⟩ => ⟨S33000000, .i32⟩
  | .hbm, ⟨49, _⟩ => ⟨S33000000, .i32⟩
  | .hbm, ⟨50, _⟩ => ⟨S33000000x1, .i32⟩
  | .hbm, ⟨51, _⟩ => ⟨S33000000x8, .f32⟩
  | .hbm, ⟨52, _⟩ => ⟨S33000000x1, .f32⟩
  | .hbm, ⟨53, _⟩ => ⟨S33000000x8, .f32⟩
  | .hbm, ⟨54, _⟩ => ⟨S33000000x8, .f32⟩
  | .hbm, ⟨55, _⟩ => ⟨S_, .f32⟩
  | .hbm, ⟨56, _⟩ => ⟨S1000000x8, .f32⟩
  | .hbm, ⟨57, _⟩ => ⟨S33000000x1, .i32⟩
  | .hbm, ⟨58, _⟩ => ⟨S1000000x8, .f32⟩
  | .hbm, ⟨59, _⟩ => ⟨S1x8, .f32⟩
  | .hbm, ⟨60, _⟩ => ⟨S1000000x8, .f32⟩
  | .hbm, ⟨61, _⟩ => ⟨S1000000x2, .f32⟩
  | .hbm, ⟨62, _⟩ => ⟨S_, .i32⟩
  | .hbm, ⟨63, _⟩ => ⟨S33000000, .i32⟩
  | .hbm, ⟨64, _⟩ => ⟨S33000000, .i1⟩
  | .hbm, ⟨65, _⟩ => ⟨S_, .i32⟩
  | .hbm, ⟨66, _⟩ => ⟨S33000000, .i32⟩
  | .hbm, ⟨67, _⟩ => ⟨S33000000, .i32⟩
  | .hbm, ⟨68, _⟩ => ⟨S33000000, .i32⟩
  | .hbm, ⟨69, _⟩ => ⟨S33000000x1, .i32⟩
  | .hbm, ⟨70, _⟩ => ⟨S33000000x2, .f32⟩
  | .hbm, ⟨71, _⟩ => ⟨S33000000x1, .f32⟩
  | .hbm, ⟨72, _⟩ => ⟨S33000000x2, .f32⟩
  | .hbm, ⟨73, _⟩ => ⟨S33000000x2, .f32⟩
  | .hbm, ⟨74, _⟩ => ⟨S_, .f32⟩
  | .hbm, ⟨75, _⟩ => ⟨S1000000x2, .f32⟩
  | .hbm, ⟨76, _⟩ => ⟨S33000000x1, .i32⟩
  | .hbm, ⟨77, _⟩ => ⟨S1000000x2, .f32⟩
  | .hbm, ⟨78, _⟩ => ⟨S1x2, .f32⟩
  | .hbm, ⟨79, _⟩ => ⟨S1000000x2, .f32⟩
  | .local _ .vmem, ⟨0, _⟩ => ⟨S10000x3, .f32⟩
  | .local _ .vmem, ⟨1, _⟩ => ⟨S10000x3, .f32⟩
  | .local _ .vmem, ⟨2, _⟩ => ⟨S3x8, .f32⟩
  | .local _ .vmem, ⟨3, _⟩ => ⟨S10000x8, .f32⟩
  | .local _ .vmem, ⟨4, _⟩ => ⟨S10000x8, .f32⟩
  | .local _ .vmem, ⟨5, _⟩ => ⟨S10000x8, .f32⟩
  | .local _ .vmem, ⟨6, _⟩ => ⟨S10000x8, .f32⟩
  | .local _ .vmem, ⟨7, _⟩ => ⟨S1x8, .f32⟩
  | .local _ .vmem, ⟨8, _⟩ => ⟨S10000x8, .f32⟩
  | .local _ .vmem, ⟨9, _⟩ => ⟨S10000x8, .f32⟩
  | .local _ .vmem, ⟨10, _⟩ => ⟨S10000x8, .f32⟩
  | .local _ .vmem, ⟨11, _⟩ => ⟨S10000x8, .f32⟩
  | .local _ .vmem, ⟨12, _⟩ => ⟨S8x2, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S10000x2, .f32⟩
  | .local _ .vmem, ⟨17, _⟩ => ⟨S1x2, .f32⟩
  | .local _ .vmem, ⟨18, _⟩ => ⟨S10000x2, .f32⟩
  | .local _ .vmem, ⟨19, _⟩ => ⟨S10000x2, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x8_S3x8_0_0 : ∀ a, (![0, 0] : Fin 2 → Nat) a + S3x8.size a ≤ S3x8.size a
  h_S3x8 : 0 < S3x8.numel
  inb_S10000x8_S10000x8_0_0 : ∀ a, (![0, 0] : Fin 2 → Nat) a + S10000x8.size a ≤ S10000x8.size a
  h_S10000x8 : 0 < S10000x8.numel
  bcast_S33000000x1_S33000000x8_0_1 : S33000000x1.BroadcastsInDim S33000000x8 (![0, 1] : Fin 2 → Fin S33000000x8.rank)
  bcast_S_S1000000x8 : S_.BroadcastsInDim S1000000x8 (![] : Fin 0 → Fin S1000000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x2_S8x2_0_0 : ∀ a, (![0, 0] : Fin 2 → Nat) a + S8x2.size a ≤ S8x2.size a
  h_S8x2 : 0 < S8x2.numel
  inb_S10000x2_S10000x2_0_0 : ∀ a, (![0, 0] : Fin 2 → Nat) a + S10000x2.size a ≤ S10000x2.size a
  h_S10000x2 : 0 < S10000x2.numel
  bcast_S33000000x1_S33000000x2_0_1 : S33000000x1.BroadcastsInDim S33000000x2 (![0, 1] : Fin 2 → Fin S33000000x2.rank)
  bcast_S_S1000000x2 : S_.BroadcastsInDim S1000000x2 (![] : Fin 0 → Fin S1000000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S1000000_S33000000x1_S33000000_n_0_0_1_wf : ScatterDims.WF S1000000 S33000000x1 S33000000 [] [0] [0] 1
  gather_S1000000_S33000000x1_S33000000_n_0_n_n_0_1_1_wf : GatherDims.WF S1000000 S33000000x1 S33000000 [] [0] [] [0] [] 1 ![1]
  dot_S10000x3_S3x8_S10000x8_1_0_0_1_n_n_wf : DotDims.WF S10000x3 S3x8 S10000x8 [1] [0] [0] [1] [] []
  gather_S1000000x8_S33000000x1_S33000000x8_1_0_n_n_0_1_18_wf : GatherDims.WF S1000000x8 S33000000x1 S33000000x8 [1] [0] [] [0] [] 1 ![1, 8]
  scatter_S1000000x8_S33000000x1_S33000000x8_1_0_0_1_wf : ScatterDims.WF S1000000x8 S33000000x1 S33000000x8 [1] [0] [0] 1
  dot_S10000x8_S8x2_S10000x2_1_0_0_1_n_n_wf : DotDims.WF S10000x8 S8x2 S10000x2 [1] [0] [0] [1] [] []
  gather_S1000000x2_S33000000x1_S33000000x2_1_0_n_n_0_1_12_wf : GatherDims.WF S1000000x2 S33000000x1 S33000000x2 [1] [0] [] [0] [] 1 ![1, 2]
  scatter_S1000000x2_S33000000x1_S33000000x2_1_0_0_1_wf : ScatterDims.WF S1000000x2 S33000000x1 S33000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S1000000x3.size a
  hwx0_0 : ∀ i : grid0.Coords, EltTy.bits .f32 = 32 ∨ (Rect.block (s := S1000000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8.size a ≤ S3x8.size a
  hwx0_1 : ∀ i : grid0.Coords, EltTy.bits .f32 = 32 ∨ (Rect.block (s := S3x8) S3x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x8.size a ≤ S1000000x8.size a
  hwx0_2 : ∀ i : grid0.Coords, EltTy.bits .f32 = 32 ∨ (Rect.block (s := S1000000x8) S10000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S1000000x8.size a
  hwx1_0 : ∀ i : grid1.Coords, EltTy.bits .f32 = 32 ∨ (Rect.block (s := S1000000x8) S10000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x8.size a ≤ S1000000x8.size a
  hwx1_2 : ∀ i : grid1.Coords, EltTy.bits .f32 = 32 ∨ (Rect.block (s := S1000000x8) S10000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S1000000x8.size a
  hwx2_0 : ∀ i : grid2.Coords, EltTy.bits .f32 = 32 ∨ (Rect.block (s := S1000000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x2.size a ≤ S8x2.size a
  hwx2_1 : ∀ i : grid2.Coords, EltTy.bits .f32 = 32 ∨ (Rect.block (s := S8x2) S8x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S1000000x2.size a
  hwx2_2 : ∀ i : grid2.Coords, EltTy.bits .f32 = 32 ∨ (Rect.block (s := S1000000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S1000000x2.size a
  hwx3_0 : ∀ i : grid3.Coords, EltTy.bits .f32 = 32 ∨ (Rect.block (s := S1000000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S1000000x2.size a
  hwx3_2 : ∀ i : grid3.Coords, EltTy.bits .f32 = 32 ∨ (Rect.block (s := S1000000x2) S10000x2.size (cc3_transform_2 i) (hinb3_2 i)).WholeWords (EltTy.packing .f32)

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def dot_S10000x3_S3x8_S10000x8_1_0_0_1_n_n : DotDims S10000x3 S3x8 S10000x8 where
  lhsContracting := [1]
  rhsContracting := [0]
  lhsNonContracting := [0]
  rhsNonContracting := [1]
  lhsBatch := []
  rhsBatch := []
  wf := dot_S10000x3_S3x8_S10000x8_1_0_0_1_n_n_wf
def gather_S1000000x8_S33000000x1_S33000000x8_1_0_n_n_0_1_18 : GatherDims S1000000x8 S33000000x1 S33000000x8 where
  offsetDims := [1]
  collapsedSliceDims := [0]
  operandBatchingDims := []
  startIndicesBatchingDims := []
  startIndexMap := [0]
  indexVectorDim := 1
  sliceSizes := ![1, 8]
  wf := gather_S1000000x8_S33000000x1_S33000000x8_1_0_n_n_0_1_18_wf
def scatter_S1000000x8_S33000000x1_S33000000x8_1_0_0_1 : ScatterDims S1000000x8 S33000000x1 S33000000x8 where
  updateWindowDims := [1]
  insertedWindowDims := [0]
  scatterDimsToOperandDims := [0]
  indexVectorDim := 1
  wf := scatter_S1000000x8_S33000000x1_S33000000x8_1_0_0_1_wf
def dot_S10000x8_S8x2_S10000x2_1_0_0_1_n_n : DotDims S10000x8 S8x2 S10000x2 where
  lhsContracting := [1]
  rhsContracting := [0]
  lhsNonContracting := [0]
  rhsNonContracting := [1]
  lhsBatch := []
  rhsBatch := []
  wf := dot_S10000x8_S8x2_S10000x2_1_0_0_1_n_n_wf
def gather_S1000000x2_S33000000x1_S33000000x2_1_0_n_n_0_1_12 : GatherDims S1000000x2 S33000000x1 S33000000x2 where
  offsetDims := [1]
  collapsedSliceDims := [0]
  operandBatchingDims := []
  startIndicesBatchingDims := []
  startIndexMap := [0]
  indexVectorDim := 1
  sliceSizes := ![1, 2]
  wf := gather_S1000000x2_S33000000x1_S33000000x2_1_0_n_n_0_1_12_wf
def scatter_S1000000x2_S33000000x1_S33000000x2_1_0_0_1 : ScatterDims S1000000x2 S33000000x1 S33000000x2 where
  updateWindowDims := [1]
  insertedWindowDims := [0]
  scatterDimsToOperandDims := [0]
  indexVectorDim := 1
  wf := scatter_S1000000x2_S33000000x1_S33000000x2_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S8x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S1000000x3 : Shape := ⟨2, ![1000000, 3]⟩
abbrev S2x32000000 : Shape := ⟨2, ![2, 32000000]⟩
abbrev S3x8 : Shape := ⟨2, ![3, 8]⟩
abbrev S8 : Shape := ⟨1, ![8]⟩
abbrev S8x2 : Shape := ⟨2, ![8, 2]⟩
abbrev S2 : Shape := ⟨1, ![2]⟩
abbrev S1000000 : Shape := ⟨1, ![1000000]⟩
abbrev S1x32000000 : Shape := ⟨2, ![1, 32000000]⟩
abbrev S32000000 : Shape := ⟨1, ![32000000]⟩
abbrev S33000000 : Shape := ⟨1, ![33000000]⟩
abbrev S_ : Shape := ⟨0, ![]⟩
abbrev S33000000x1 : Shape := ⟨2, ![33000000, 1]⟩
abbrev S1000000x8 : Shape := ⟨2, ![1000000, 8]⟩
abbrev S33000000x8 : Shape := ⟨2, ![33000000, 8]⟩
abbrev S1x8 : Shape := ⟨2, ![1, 8]⟩
abbrev S1000000x2 : Shape := ⟨2, ![1000000, 2]⟩
abbrev S33000000x2 : Shape := ⟨2, ![33000000, 2]⟩
abbrev S1x2 : Shape := ⟨2, ![1, 2]⟩
abbrev S1000000x1 : Shape := ⟨2, ![1000000, 1]⟩

abbrev nBuf : Space → Nat
  | .hbm => 100
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2x32000000, .i32⟩
  | .hbm, ⟨2, _⟩ => ⟨S3x8, .f32⟩
  | .hbm, ⟨3, _⟩ => ⟨S8, .f32⟩
  | .hbm, ⟨4, _⟩ => ⟨S8x2, .f32⟩
  | .hbm, ⟨5, _⟩ => ⟨S2, .f32⟩
  | .hbm, ⟨6, _⟩ => ⟨S1000000, .i32⟩
  | .hbm, ⟨7, _⟩ => ⟨S1x32000000, .i32⟩
  | .hbm, ⟨8, _⟩ => ⟨S32000000, .i32⟩
  | .hbm, ⟨9, _⟩ => ⟨S33000000, .i32⟩
  | .hbm, ⟨10, _⟩ => ⟨S1x32000000, .i32⟩
  | .hbm, ⟨11, _⟩ => ⟨S32000000, .i32⟩
  | .hbm, ⟨12, _⟩ => ⟨S33000000, .i32⟩
  | .hbm, ⟨13, _⟩ => ⟨S_, .f32⟩
  | .hbm, ⟨14, _⟩ => ⟨S33000000, .f32⟩
  | .hbm, ⟨15, _⟩ => ⟨S_, .f32⟩
  | .hbm, ⟨16, _⟩ => ⟨S1000000, .f32⟩
  | .hbm, ⟨17, _⟩ => ⟨S33000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .f32⟩
  | .hbm, ⟨22, _⟩ => ⟨S1000000, .f32⟩
  | .hbm, ⟨23, _⟩ => ⟨S_, .i32⟩
  | .hbm, ⟨24, _⟩ => ⟨S33000000, .i32⟩
  | .hbm, ⟨25, _⟩ => ⟨S33000000, .i1⟩
  | .hbm, ⟨26, _⟩ => ⟨S_, .i32⟩
  | .hbm, ⟨27, _⟩ => ⟨S33000000, .i32⟩
  | .hbm, ⟨28, _⟩ => ⟨S33000000, .i32⟩
  | .hbm, ⟨29, _⟩ => ⟨S33000000, .i32⟩
  | .hbm, ⟨30, _⟩ => ⟨S33000000x1, .i32⟩
  | .hbm, ⟨31, _⟩ => ⟨S33000000, .f32⟩
  | .hbm, ⟨32, _⟩ => ⟨S_, .i32⟩
  | .hbm, ⟨33, _⟩ => ⟨S33000000, .i32⟩
  | .hbm, ⟨34, _⟩ => ⟨S33000000, .i1⟩
  | .hbm, ⟨35, _⟩ => ⟨S_, .i32⟩
  | .hbm, ⟨36, _⟩ => ⟨S33000000, .i32⟩
  | .hbm, ⟨37, _⟩ => ⟨S33000000, .i32⟩
  | .hbm, ⟨38, _⟩ => ⟨S33000000, .i32⟩
  | .hbm, ⟨39, _⟩ => ⟨S33000000x1, .i32⟩
  | .hbm, ⟨40, _⟩ => ⟨S33000000, .f32⟩
  | .hbm, ⟨41, _⟩ => ⟨S33000000, .f32⟩
  | .hbm, ⟨42, _⟩ => ⟨S1000000x8, .f32⟩
  | .hbm, ⟨43, _⟩ => ⟨S_, .i32⟩
  | .hbm, ⟨44, _⟩ => ⟨S33000000, .i32⟩
  | .hbm, ⟨45, _⟩ => ⟨S33000000, .i1⟩
  | .hbm, ⟨46, _⟩ => ⟨S_, .i32⟩
  | .hbm, ⟨47, _⟩ => ⟨S33000000, .i32⟩
  | .hbm, ⟨48, _⟩ => ⟨S33000000, .i32⟩
  | .hbm, ⟨49, _⟩ => ⟨S33000000, .i32⟩
  | .hbm, ⟨50, _⟩ => ⟨S33000000x1, .i32⟩
  | .hbm, ⟨51, _⟩ => ⟨S33000000x8, .f32⟩
  | .hbm, ⟨52, _⟩ => ⟨S33000000x1, .f32⟩
  | .hbm, ⟨53, _⟩ => ⟨S33000000x8, .f32⟩
  | .hbm, ⟨54, _⟩ => ⟨S33000000x8, .f32⟩
  | .hbm, ⟨55, _⟩ => ⟨S_, .f32⟩
  | .hbm, ⟨56, _⟩ => ⟨S1000000x8, .f32⟩
  | .hbm, ⟨57, _⟩ => ⟨S33000000x1, .i32⟩
  | .hbm, ⟨58, _⟩ => ⟨S1000000x8, .f32⟩
  | .hbm, ⟨59, _⟩ => ⟨S1x8, .f32⟩
  | .hbm, ⟨60, _⟩ => ⟨S1000000x8, .f32⟩
  | .hbm, ⟨61, _⟩ => ⟨S1000000x8, .f32⟩
  | .hbm, ⟨62, _⟩ => ⟨S_, .f32⟩
  | .hbm, ⟨63, _⟩ => ⟨S1000000x8, .f32⟩
  | .hbm, ⟨64, _⟩ => ⟨S1000000x8, .f32⟩
  | .hbm, ⟨65, _⟩ => ⟨S1000000x2, .f32⟩
  | .hbm, ⟨66, _⟩ => ⟨S_, .i32⟩
  | .hbm, ⟨67, _⟩ => ⟨S33000000, .i32⟩
  | .hbm, ⟨68, _⟩ => ⟨S33000000, .i1⟩
  | .hbm, ⟨69, _⟩ => ⟨S_, .i32⟩
  | .hbm, ⟨70, _⟩ => ⟨S33000000, .i32⟩
  | .hbm, ⟨71, _⟩ => ⟨S33000000, .i32⟩
  | .hbm, ⟨72, _⟩ => ⟨S33000000, .i32⟩
  | .hbm, ⟨73, _⟩ => ⟨S33000000x1, .i32⟩
  | .hbm, ⟨74, _⟩ => ⟨S33000000x2, .f32⟩
  | .hbm, ⟨75, _⟩ => ⟨S33000000x1, .f32⟩
  | .hbm, ⟨76, _⟩ => ⟨S33000000x2, .f32⟩
  | .hbm, ⟨77, _⟩ => ⟨S33000000x2, .f32⟩
  | .hbm, ⟨78, _⟩ => ⟨S_, .f32⟩
  | .hbm, ⟨79, _⟩ => ⟨S1000000x2, .f32⟩
  | .hbm, ⟨80, _⟩ => ⟨S33000000x1, .i32⟩
  | .hbm, ⟨81, _⟩ => ⟨S1000000x2, .f32⟩
  | .hbm, ⟨82, _⟩ => ⟨S1x2, .f32⟩
  | .hbm, ⟨83, _⟩ => ⟨S1000000x2, .f32⟩
  | .hbm, ⟨84, _⟩ => ⟨S1000000x2, .f32⟩
  | .hbm, ⟨85, _⟩ => ⟨S_, .f32⟩
  | .hbm, ⟨86, _⟩ => ⟨S1000000, .f32⟩
  | .hbm, ⟨87, _⟩ => ⟨S_, .f32⟩
  | .hbm, ⟨88, _⟩ => ⟨S1000000, .f32⟩
  | .hbm, ⟨89, _⟩ => ⟨S1000000, .f32⟩
  | .hbm, ⟨90, _⟩ => ⟨S1000000x1, .f32⟩
  | .hbm, ⟨91, _⟩ => ⟨S1000000x2, .f32⟩
  | .hbm, ⟨92, _⟩ => ⟨S1000000x2, .f32⟩
  | .hbm, ⟨93, _⟩ => ⟨S1000000x2, .f32⟩
  | .hbm, ⟨94, _⟩ => ⟨S_, .f32⟩
  | .hbm, ⟨95, _⟩ => ⟨S1000000, .f32⟩
  | .hbm, ⟨96, _⟩ => ⟨S1000000x1, .f32⟩
  | .hbm, ⟨97, _⟩ => ⟨S1000000x1, .f32⟩
  | .hbm, ⟨98, _⟩ => ⟨S1000000x2, .f32⟩
  | .hbm, ⟨99, _⟩ => ⟨S1000000x2, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  concatenates_S32000000_S1000000_S33000000_d0 : Shape.Concatenates [S32000000, S1000000] S33000000 0
  slices_S2x32000000_S1x32000000_1_0 : S2x32000000.Slices ![1, 0] S1x32000000
  bcast_S_S33000000 : S_.BroadcastsInDim S33000000 (![] : Fin 0 → Fin S33000000.rank)
  bcast_S_S1000000 : S_.BroadcastsInDim S1000000 (![] : Fin 0 → Fin S1000000.rank)
  bcast_S33000000_S33000000x1_0 : S33000000.BroadcastsInDim S33000000x1 (![0] : Fin 1 → Fin S33000000x1.rank)
  bcast_S33000000x1_S33000000x8_0_1 : S33000000x1.BroadcastsInDim S33000000x8 (![0, 1] : Fin 2 → Fin S33000000x8.rank)
  bcast_S_S1000000x8 : S_.BroadcastsInDim S1000000x8 (![] : Fin 0 → Fin S1000000x8.rank)
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  bcast_S33000000x1_S33000000x2_0_1 : S33000000x1.BroadcastsInDim S33000000x2 (![0, 1] : Fin 2 → Fin S33000000x2.rank)
  bcast_S_S1000000x2 : S_.BroadcastsInDim S1000000x2 (![] : Fin 0 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  reducesTo_S1000000x2_S1000000_d1 : S1000000x2.ReducesTo [1] S1000000
  h_S_ : 0 < S_.numel
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  scatter_S1000000_S33000000x1_S33000000_n_0_0_1_wf : ScatterDims.WF S1000000 S33000000x1 S33000000 [] [0] [0] 1
  gather_S1000000_S33000000x1_S33000000_n_0_n_n_0_1_1_wf : GatherDims.WF S1000000 S33000000x1 S33000000 [] [0] [] [0] [] 1 ![1]
  dot_S1000000x3_S3x8_S1000000x8_1_0_0_1_n_n_wf : DotDims.WF S1000000x3 S3x8 S1000000x8 [1] [0] [0] [1] [] []
  gather_S1000000x8_S33000000x1_S33000000x8_1_0_n_n_0_1_18_wf : GatherDims.WF S1000000x8 S33000000x1 S33000000x8 [1] [0] [] [0] [] 1 ![1, 8]
  scatter_S1000000x8_S33000000x1_S33000000x8_1_0_0_1_wf : ScatterDims.WF S1000000x8 S33000000x1 S33000000x8 [1] [0] [0] 1
  dot_S1000000x8_S8x2_S1000000x2_1_0_0_1_n_n_wf : DotDims.WF S1000000x8 S8x2 S1000000x2 [1] [0] [0] [1] [] []
  gather_S1000000x2_S33000000x1_S33000000x2_1_0_n_n_0_1_12_wf : GatherDims.WF S1000000x2 S33000000x1 S33000000x2 [1] [0] [] [0] [] 1 ![1, 2]
  scatter_S1000000x2_S33000000x1_S33000000x2_1_0_0_1_wf : ScatterDims.WF S1000000x2 S33000000x1 S33000000x2 [1] [0] [0] 1

variable [Facts₀]

def scatter_S1000000_S33000000x1_S33000000_n_0_0_1 : ScatterDims S1000000 S33000000x1 S33000000 where
  updateWindowDims := []
  insertedWindowDims := [0]
  scatterDimsToOperandDims := [0]
  indexVectorDim := 1
  wf := scatter_S1000000_S33000000x1_S33000000_n_0_0_1_wf
def gather_S1000000_S33000000x1_S33000000_n_0_n_n_0_1_1 : GatherDims S1000000 S33000000x1 S33000000 where
  offsetDims := []
  collapsedSliceDims := [0]
  operandBatchingDims := []
  startIndicesBatchingDims := []
  startIndexMap := [0]
  indexVectorDim := 1
  sliceSizes := ![1]
  wf := gather_S1000000_S33000000x1_S33000000_n_0_n_n_0_1_1_wf
def dot_S1000000x3_S3x8_S1000000x8_1_0_0_1_n_n : DotDims S1000000x3 S3x8 S1000000x8 where
  lhsContracting := [1]
  rhsContracting := [0]
  lhsNonContracting := [0]
  rhsNonContracting := [1]
  lhsBatch := []
  rhsBatch := []
  wf := dot_S1000000x3_S3x8_S1000000x8_1_0_0_1_n_n_wf
def gather_S1000000x8_S33000000x1_S33000000x8_1_0_n_n_0_1_18 : GatherDims S1000000x8 S33000000x1 S33000000x8 where
  offsetDims := [1]
  collapsedSliceDims := [0]
  operandBatchingDims := []
  startIndicesBatchingDims := []
  startIndexMap := [0]
  indexVectorDim := 1
  sliceSizes := ![1, 8]
  wf := gather_S1000000x8_S33000000x1_S33000000x8_1_0_n_n_0_1_18_wf
def scatter_S1000000x8_S33000000x1_S33000000x8_1_0_0_1 : ScatterDims S1000000x8 S33000000x1 S33000000x8 where
  updateWindowDims := [1]
  insertedWindowDims := [0]
  scatterDimsToOperandDims := [0]
  indexVectorDim := 1
  wf := scatter_S1000000x8_S33000000x1_S33000000x8_1_0_0_1_wf
def dot_S1000000x8_S8x2_S1000000x2_1_0_0_1_n_n : DotDims S1000000x8 S8x2 S1000000x2 where
  lhsContracting := [1]
  rhsContracting := [0]
  lhsNonContracting := [0]
  rhsNonContracting := [1]
  lhsBatch := []
  rhsBatch := []
  wf := dot_S1000000x8_S8x2_S1000000x2_1_0_0_1_n_n_wf
def gather_S1000000x2_S33000000x1_S33000000x2_1_0_n_n_0_1_12 : GatherDims S1000000x2 S33000000x1 S33000000x2 where
  offsetDims := [1]
  collapsedSliceDims := [0]
  operandBatchingDims := []
  startIndicesBatchingDims := []
  startIndexMap := [0]
  indexVectorDim := 1
  sliceSizes := ![1, 2]
  wf := gather_S1000000x2_S33000000x1_S33000000x2_1_0_n_n_0_1_12_wf
def scatter_S1000000x2_S33000000x1_S33000000x2_1_0_0_1 : ScatterDims S1000000x2 S33000000x1 S33000000x2 where
  updateWindowDims := [1]
  insertedWindowDims := [0]
  scatterDimsToOperandDims := [0]
  indexVectorDim := 1
  wf := scatter_S1000000x2_S33000000x1_S33000000x2_1_0_0_1_wf

class Facts : Prop extends Facts₀ where

variable [Facts]
-- ==== Proof.RowOps.lean ====
/-
  The four dense steps of the two-layer graph convolution, each as ONE function of whole arrays, spelt with the host
  operations the reference applies (so that each is, by unfolding, a stage of the reference's run):
    * `linear1 x w`, `linear2 h w`: the products  x · w  ([1000000,3]·[3,8])  and  h · w  ([1000000,8]·[8,2]);
    * `biasRelu a b`: row i, column j  ↦  max (a i j + b 0 j) 0;
    * `logSoftmaxRows z`: row i, column j  ↦  (z i j − μ i) − log (Σ_k exp (z i k − μ i)),  μ i = max (−∞) (max_k z i k);
    * `biasLogSoftmax a b = logSoftmaxRows (a + b broadcast along the rows)`.
  Nothing is proved here: the kernel's regions are shown to write these arrays, and the reference's stages are these by unfolding.
-/
import proofs.«154451_j66357244723265_1_alg».proof.Proof.Gen.ReferenceIdeal
import Idealize.ShloMosaic.PureOps.Ideal

noncomputable section

namespace Cert.ReferenceIdeal.Hand

open Cert.ReferenceIdeal Cert.ReferenceIdeal.Gen Idealize.ShloMosaic

variable {F : FTy → Type} [FloatOps F]

/-- x · w, a [1000000,3] array times a [3,8] one: the host's `dot_general` contracting x's columns with w's rows. -/
def linear1 (x : (⟨S1000000x3, .f32⟩ : BufTy).Contents (Elt F)) (w : (⟨S3x8, .f32⟩ : BufTy).Contents (Elt F)) :
    (⟨S1000000x8, .f32⟩ : BufTy).Contents (Elt F) :=
  Host.dotGeneral dot_S1000000x3_S3x8_S1000000x8_1_0_0_1_n_n none x w

/-- h · w, a [1000000,8] array times an [8,2] one. -/
def linear2 (h : (⟨S1000000x8, .f32⟩ : BufTy).Contents (Elt F)) (w : (⟨S8x2, .f32⟩ : BufTy).Contents (Elt F)) :
    (⟨S1000000x2, .f32⟩ : BufTy).Contents (Elt F) :=
  Host.dotGeneral dot_S1000000x8_S8x2_S1000000x2_1_0_0_1_n_n none h w

/-- max (a + b, 0), the [1,8] row b added to every row of a. -/
def biasRelu (a : (⟨S1000000x8, .f32⟩ : BufTy).Contents (Elt F)) (b : (⟨S1x8, .f32⟩ : BufTy).Contents (Elt F)) :
    (⟨S1000000x8, .f32⟩ : BufTy).Contents (Elt F) :=
  maximumf (addf a (broadcastInDim S1000000x8 ![0, 1] bcast_S1x8_S1000000x8_0_1 b))
    (broadcastInDim S1000000x8 ![] bcast_S_S1000000x8 (constant S_ .f32 0x00000000#32))

/-- Each row's maximum, started from −∞ and joined with −∞ once more (both leave the maximum of the row's two entries). -/
def rowMax (z : (⟨S1000000x2, .f32⟩ : BufTy).Contents (Elt F)) : (⟨S1000000, .f32⟩ : BufTy).Contents (Elt F) :=
  maximumf (broadcastInDim S1000000 ![] bcast_S_S1000000 (constant S_ .f32 0xFF800000#32))
    (Host.reduce FloatOps.maximumf z (constant S_ .f32 0xFF800000#32) reducesTo_S1000000x2_S1000000_d1 h_S_)

/-- z with each row's maximum taken off. -/
def rowShift (z : (⟨S1000000x2, .f32⟩ : BufTy).Contents (Elt F)) : (⟨S1000000x2, .f32⟩ : BufTy).Contents (Elt F) :=
  subf z (broadcastInDim S1000000x2 ![0, 1] bcast_S1000000x1_S1000000x2_0_1
    (broadcastInDim S1000000x1 ![0] bcast_S1000000_S1000000x1_0 (rowMax z)))

/-- The row-wise log-softmax: the shifted entries less the logarithm of the row's sum of their exponentials. -/
def logSoftmaxRows (z : (⟨S1000000x2, .f32⟩ : BufTy).Contents (Elt F)) : (⟨S1000000x2, .f32⟩ : BufTy).Contents (Elt F) :=
  subf (rowShift z) (broadcastInDim S1000000x2 ![0, 1] bcast_S1000000x1_S1000000x2_0_1
    (Host.log (broadcastInDim S1000000x1 ![0] bcast_S1000000_S1000000x1_0
      (Host.reduceAdd (Host.exp (rowShift z)) (constant S_ .f32 0x00000000#32) reducesTo_S1000000x2_S1000000_d1 h_S_))))

/-- The row-wise log-softmax of a with the [1,2] row b added to every row. -/
def biasLogSoftmax (a : (⟨S1000000x2, .f32⟩ : BufTy).Contents (Elt F)) (b : (⟨S1x2, .f32⟩ : BufTy).Contents (Elt F)) :
    (⟨S1000000x2, .f32⟩ : BufTy).Contents (Elt F) :=
  logSoftmaxRows (addf a (broadcastInDim S1000000x2 ![0, 1] bcast_S1x2_S1000000x2_0_1 b))

end Cert.ReferenceIdeal.Hand

end
-- ==== Proof.LibTypedRef.lean ====
/-
  An outlined function's operations carry the types of the tensor values they name: around each of them contents are
  moved to the buffer's own type and back (`TRef.toBuf`, `TRef.ofBuf`: transport along the reference's type equation).
  Reading a stretch of such operations leaves the two moves next to each other at every value one operation hands to the
  next. They cancel, whatever the reference: its type equation is an equation with a variable on one side, so it can be
  substituted, and then both moves are the identity. Rewriting with these two lemmas is syntactic, and strips every pair at
  once; what remains is one move at the stretch's first input and one at its last output, each the identity by `rfl` at a
  literal buffer.
-/
import Idealize.ShloMosaic.Lib.StableHlo

noncomputable section

namespace Cert.Lib.TypedRef

open Idealize.ShloMosaic Idealize.ShloMosaic.StableHlo

variable {sig : RefSig} {Val : EltTy → Type} {T : BufTy}

/-- Contents moved to a typed reference's buffer type and back are the contents. -/
theorem ofBuf_toBuf (x : TRef sig T) (v : T.Contents Val) : x.ofBuf (x.toBuf v) = v := by
  obtain ⟨r, h, h1, h2⟩ := x
  subst h
  rfl

/-- Contents of the buffer moved to the value's type and back are the contents. -/
theorem toBuf_ofBuf (x : TRef sig T) (v : x.ref.ty.Contents Val) : x.toBuf (x.ofBuf v) = v := by
  obtain ⟨r, h, h1, h2⟩ := x
  subst h
  rfl

end Cert.Lib.TypedRef

end
-- ==== Proof.RefValue.lean ====
/-
  The reference's operations, cut where the kernel's program has its pallas_calls, and each piece read as a function of
  the buffer contents it starts from (a variable `U`): the graph's preparation (36 operations); the first dense product;
  the first aggregation over the edges (16); bias + relu (6, the outlined relu in line); the second dense product; the
  second aggregation (16); bias + row-wise log-softmax (18, the outlined log-softmax in line). The four dense pieces
  read as the whole-array functions `linear1`, `biasRelu`, `linear2`, `biasLogSoftmax`; the graph's pieces are left as
  they are, to be matched against the kernel program's own host operations, which are the same. A piece writes only its
  own values, so whatever a later piece reads from before it is still there.
-/
import proofs.«154451_j66357244723265_1_alg».proof.Proof.RefRun
import proofs.«154451_j66357244723265_1_alg».proof.Proof.RowOps
import proofs.«154451_j66357244723265_1_alg».proof.Proof.LibTypedRef
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.ValueP

variable {F : FTy → Type} [FloatOps F]

/-! ## The cuts -/

/-- The graph's preparation: edge sources and targets with self-loops, degrees, the per-edge normalisation. -/
abbrev graphOps : List (HloOp τ sig (Elt F)) := (ops (F := F)).take 36
abbrev afterGraph : List (HloOp τ sig (Elt F)) := (ops (F := F)).drop 36
/-- x · W1. -/
abbrev dense1Ops : List (HloOp τ sig (Elt F)) := (afterGraph (F := F)).take 1
abbrev afterDense1 : List (HloOp τ sig (Elt F)) := (afterGraph (F := F)).drop 1
/-- The first aggregation over the edges. -/
abbrev agg1Ops : List (HloOp τ sig (Elt F)) := (afterDense1 (F := F)).take 16
abbrev afterAgg1 : List (HloOp τ sig (Elt F)) := (afterDense1 (F := F)).drop 16
/-- Bias and relu. -/
abbrev epi1Ops : List (HloOp τ sig (Elt F)) := (afterAgg1 (F := F)).take 6
abbrev afterEpi1 : List (HloOp τ sig (Elt F)) := (afterAgg1 (F := F)).drop 6
/-- h · W2. -/
abbrev dense2Ops : List (HloOp τ sig (Elt F)) := (afterEpi1 (F := F)).take 1
abbrev afterDense2 : List (HloOp τ sig (Elt F)) := (afterEpi1 (F := F)).drop 1
/-- The second aggregation over the edges. -/
abbrev agg2Ops : List (HloOp τ sig (Elt F)) := (afterDense2 (F := F)).take 16
/-- Bias and the row-wise log-softmax. -/
abbrev epi2Ops : List (HloOp τ sig (Elt F)) := (afterDense2 (F := F)).drop 16

/-- Running all the operations is running the seven pieces in turn. -/
theorem ops_pieces (U : Valuation τ sig (Elt F)) :
    StableHlo.after (ops (F := F)) U
      = StableHlo.after epi2Ops (StableHlo.after agg2Ops (StableHlo.after dense2Ops (StableHlo.after epi1Ops
          (StableHlo.after agg1Ops (StableHlo.after dense1Ops (StableHlo.after graphOps U)))))) := by
  simp only [← StableHlo.after_append, List.append_assoc]
  simp only [graphOps, afterGraph, dense1Ops, afterDense1, agg1Ops, afterAgg1, epi1Ops, afterEpi1, dense2Ops, afterDense2, agg2Ops, epi2Ops, List.take_append_drop]

variable (U : Valuation τ sig (Elt F))

/-! ## The dense pieces, read -/

/-! The outlined functions' operations carry their tensor types: contents are moved to the buffer's own type and back
    around each of them. The moves cancel in pairs (LibTypedRef); at a literal buffer a single move is the identity. -/

/-- At the result buffer the move is the identity. -/
theorem toBuf_result (p1 p2 p3) (v : (⟨S1000000x2, .f32⟩ : BufTy).Contents (Elt F)) :
    (TRef.of (sig := sig) (T := ⟨S1000000x2, .f32⟩) main_v64 p1 p2 p3).toBuf (Val := Elt F) v = v := rfl

/-- At the buffer of a + b2, which a plain operation writes, the move back is the identity. -/
theorem ofBuf_biased (p1 p2 p3) (v : (⟨S1000000x2, .f32⟩ : BufTy).Contents (Elt F)) :
    (TRef.of (sig := sig) (T := ⟨S1000000x2, .f32⟩) main_v63 p1 p2 p3).ofBuf (Val := Elt F) v = v := rfl

set_option maxHeartbeats 4000000 in
theorem dense1_value : StableHlo.after (dense1Ops (F := F)) U (Proc.devRef .tc main_v29)
    = linear1 (F := F) (U (Proc.devRef .tc main_arg0)) (U (Proc.devRef .tc main_arg2)) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp
  unfold linear1
  with_reducible rfl

set_option maxHeartbeats 4000000 in
theorem epi1_value : StableHlo.after (epi1Ops (F := F)) U (Proc.devRef .tc main_v46)
    = biasRelu (F := F) (U (Proc.devRef .tc main_v42)) (broadcastInDim S1x8 ![1] bcast_S8_S1x8_1 (U (Proc.devRef .tc main_arg3))) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp
  try simp only [TRef.ofBuf, TRef.toBuf, cast_eq]
  unfold biasRelu
  with_reducible rfl

set_option maxHeartbeats 4000000 in
theorem dense2_value : StableHlo.after (dense2Ops (F := F)) U (Proc.devRef .tc main_v47)
    = linear2 (F := F) (U (Proc.devRef .tc main_v46)) (U (Proc.devRef .tc main_arg4)) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp
  unfold linear2
  with_reducible rfl

set_option maxHeartbeats 8000000 in
theorem epi2_value : StableHlo.after (epi2Ops (F := F)) U (Proc.devRef .tc main_v64)
    = biasLogSoftmax (F := F) (U (Proc.devRef .tc main_v60)) (broadcastInDim S1x2 ![1] bcast_S2_S1x2_1 (U (Proc.devRef .tc main_arg5))) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp
  simp only [Cert.Lib.TypedRef.ofBuf_toBuf, toBuf_result, ofBuf_biased]
  unfold biasLogSoftmax logSoftmaxRows rowShift rowMax
  with_reducible rfl

/-! ## What each piece leaves alone -/

set_option maxHeartbeats 4000000 in
theorem graphOps_keeps_arg0 : StableHlo.after (graphOps (F := F)) U (Proc.devRef .tc main_arg0) = U (Proc.devRef .tc main_arg0) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem graphOps_keeps_arg2 : StableHlo.after (graphOps (F := F)) U (Proc.devRef .tc main_arg2) = U (Proc.devRef .tc main_arg2) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem graphOps_keeps_arg3 : StableHlo.after (graphOps (F := F)) U (Proc.devRef .tc main_arg3) = U (Proc.devRef .tc main_arg3) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem graphOps_keeps_arg4 : StableHlo.after (graphOps (F := F)) U (Proc.devRef .tc main_arg4) = U (Proc.devRef .tc main_arg4) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem graphOps_keeps_arg5 : StableHlo.after (graphOps (F := F)) U (Proc.devRef .tc main_arg5) = U (Proc.devRef .tc main_arg5) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl

set_option maxHeartbeats 4000000 in
theorem dense1Ops_keeps_v3 : StableHlo.after (dense1Ops (F := F)) U (Proc.devRef .tc main_v3) = U (Proc.devRef .tc main_v3) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense1Ops_keeps_v6 : StableHlo.after (dense1Ops (F := F)) U (Proc.devRef .tc main_v6) = U (Proc.devRef .tc main_v6) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense1Ops_keeps_v28 : StableHlo.after (dense1Ops (F := F)) U (Proc.devRef .tc main_v28) = U (Proc.devRef .tc main_v28) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense1Ops_keeps_arg3 : StableHlo.after (dense1Ops (F := F)) U (Proc.devRef .tc main_arg3) = U (Proc.devRef .tc main_arg3) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense1Ops_keeps_arg4 : StableHlo.after (dense1Ops (F := F)) U (Proc.devRef .tc main_arg4) = U (Proc.devRef .tc main_arg4) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense1Ops_keeps_arg5 : StableHlo.after (dense1Ops (F := F)) U (Proc.devRef .tc main_arg5) = U (Proc.devRef .tc main_arg5) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl

set_option maxHeartbeats 4000000 in
theorem agg1Ops_keeps_v3 : StableHlo.after (agg1Ops (F := F)) U (Proc.devRef .tc main_v3) = U (Proc.devRef .tc main_v3) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem agg1Ops_keeps_v6 : StableHlo.after (agg1Ops (F := F)) U (Proc.devRef .tc main_v6) = U (Proc.devRef .tc main_v6) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem agg1Ops_keeps_v28 : StableHlo.after (agg1Ops (F := F)) U (Proc.devRef .tc main_v28) = U (Proc.devRef .tc main_v28) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem agg1Ops_keeps_arg3 : StableHlo.after (agg1Ops (F := F)) U (Proc.devRef .tc main_arg3) = U (Proc.devRef .tc main_arg3) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem agg1Ops_keeps_arg4 : StableHlo.after (agg1Ops (F := F)) U (Proc.devRef .tc main_arg4) = U (Proc.devRef .tc main_arg4) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem agg1Ops_keeps_arg5 : StableHlo.after (agg1Ops (F := F)) U (Proc.devRef .tc main_arg5) = U (Proc.devRef .tc main_arg5) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl

set_option maxHeartbeats 4000000 in
theorem epi1Ops_keeps_v3 : StableHlo.after (epi1Ops (F := F)) U (Proc.devRef .tc main_v3) = U (Proc.devRef .tc main_v3) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem epi1Ops_keeps_v6 : StableHlo.after (epi1Ops (F := F)) U (Proc.devRef .tc main_v6) = U (Proc.devRef .tc main_v6) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem epi1Ops_keeps_v28 : StableHlo.after (epi1Ops (F := F)) U (Proc.devRef .tc main_v28) = U (Proc.devRef .tc main_v28) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem epi1Ops_keeps_arg4 : StableHlo.after (epi1Ops (F := F)) U (Proc.devRef .tc main_arg4) = U (Proc.devRef .tc main_arg4) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem epi1Ops_keeps_arg5 : StableHlo.after (epi1Ops (F := F)) U (Proc.devRef .tc main_arg5) = U (Proc.devRef .tc main_arg5) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl

set_option maxHeartbeats 4000000 in
theorem dense2Ops_keeps_v3 : StableHlo.after (dense2Ops (F := F)) U (Proc.devRef .tc main_v3) = U (Proc.devRef .tc main_v3) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense2Ops_keeps_v6 : StableHlo.after (dense2Ops (F := F)) U (Proc.devRef .tc main_v6) = U (Proc.devRef .tc main_v6) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense2Ops_keeps_v28 : StableHlo.after (dense2Ops (F := F)) U (Proc.devRef .tc main_v28) = U (Proc.devRef .tc main_v28) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl
set_option maxHeartbeats 4000000 in
theorem dense2Ops_keeps_arg5 : StableHlo.after (dense2Ops (F := F)) U (Proc.devRef .tc main_arg5) = U (Proc.devRef .tc main_arg5) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl

set_option maxHeartbeats 4000000 in
theorem agg2Ops_keeps_arg5 : StableHlo.after (agg2Ops (F := F)) U (Proc.devRef .tc main_arg5) = U (Proc.devRef .tc main_arg5) := by
  simp only [graphOps, afterGraph, dense1Ops, afterDense1, agg1Ops, afterAgg1, epi1Ops, afterEpi1, dense2Ops, afterDense2, agg2Ops, epi2Ops, ops, List.take_succ_cons, List.take_zero, List.drop_succ_cons, List.drop_zero]
  after_results_simp <;> rfl

/-! ## The contents at the seven boundaries, and what they hold -/

/-- After the graph's preparation. -/
abbrev B1 : Valuation τ sig (Elt F) := StableHlo.after (graphOps (F := F)) U
/-- After the first dense product. -/
abbrev B2 : Valuation τ sig (Elt F) := StableHlo.after (dense1Ops (F := F)) (B1 U)
/-- After the first aggregation. -/
abbrev B3 : Valuation τ sig (Elt F) := StableHlo.after (agg1Ops (F := F)) (B2 U)
/-- After bias and relu. -/
abbrev B4 : Valuation τ sig (Elt F) := StableHlo.after (epi1Ops (F := F)) (B3 U)
/-- After the second dense product. -/
abbrev B5 : Valuation τ sig (Elt F) := StableHlo.after (dense2Ops (F := F)) (B4 U)
/-- After the second aggregation. -/
abbrev B6 : Valuation τ sig (Elt F) := StableHlo.after (agg2Ops (F := F)) (B5 U)
/-- After bias and log-softmax: the end. -/
abbrev B7 : Valuation τ sig (Elt F) := StableHlo.after (epi2Ops (F := F)) (B6 U)

theorem ops_B7 : StableHlo.after (ops (F := F)) U = B7 U := ops_pieces U

/-- x · W1 of the launch arguments. -/
theorem B2_dense : B2 U (Proc.devRef .tc main_v29) = linear1 (F := F) (U (Proc.devRef .tc main_arg0)) (U (Proc.devRef .tc main_arg2)) := by
  refine (dense1_value (B1 U)).trans ?_
  rw [show B1 U (Proc.devRef .tc main_arg0) = U (Proc.devRef .tc main_arg0) from graphOps_keeps_arg0 U,
    show B1 U (Proc.devRef .tc main_arg2) = U (Proc.devRef .tc main_arg2) from graphOps_keeps_arg2 U]

/-- The graph's preparation is untouched by the first dense product. -/
theorem B2_v3 : B2 U (Proc.devRef .tc main_v3) = B1 U (Proc.devRef .tc main_v3) := dense1Ops_keeps_v3 (B1 U)
/-- The graph's preparation is untouched by the first dense product. -/
theorem B2_v6 : B2 U (Proc.devRef .tc main_v6) = B1 U (Proc.devRef .tc main_v6) := dense1Ops_keeps_v6 (B1 U)
/-- The graph's preparation is untouched by the first dense product. -/
theorem B2_v28 : B2 U (Proc.devRef .tc main_v28) = B1 U (Proc.devRef .tc main_v28) := dense1Ops_keeps_v28 (B1 U)

/-- The first bias, still as launched when the epilogue reads it. -/
theorem B3_arg3 : B3 U (Proc.devRef .tc main_arg3) = U (Proc.devRef .tc main_arg3) :=
  (agg1Ops_keeps_arg3 (B2 U)).trans ((dense1Ops_keeps_arg3 (B1 U)).trans (graphOps_keeps_arg3 U))

/-- max (a + b1, 0) of the first aggregation's result. -/
theorem B4_epilogue : B4 U (Proc.devRef .tc main_v46)
    = biasRelu (F := F) (B3 U (Proc.devRef .tc main_v42)) (broadcastInDim S1x8 ![1] bcast_S8_S1x8_1 (U (Proc.devRef .tc main_arg3))) := by
  refine (epi1_value (B3 U)).trans ?_
  rw [B3_arg3 U]

/-- The second weight, still as launched when the second product reads it. -/
theorem B4_arg4 : B4 U (Proc.devRef .tc main_arg4) = U (Proc.devRef .tc main_arg4) :=
  (epi1Ops_keeps_arg4 (B3 U)).trans ((agg1Ops_keeps_arg4 (B2 U)).trans ((dense1Ops_keeps_arg4 (B1 U)).trans (graphOps_keeps_arg4 U)))

/-- h · W2. -/
theorem B5_dense : B5 U (Proc.devRef .tc main_v47) = linear2 (F := F) (B4 U (Proc.devRef .tc main_v46)) (U (Proc.devRef .tc main_arg4)) := by
  refine (dense2_value (B4 U)).trans ?_
  rw [B4_arg4 U]

/-- The graph's preparation is still there when the second aggregation reads it. -/
theorem B5_v3 : B5 U (Proc.devRef .tc main_v3) = B1 U (Proc.devRef .tc main_v3) :=
  (dense2Ops_keeps_v3 (B4 U)).trans ((epi1Ops_keeps_v3 (B3 U)).trans ((agg1Ops_keeps_v3 (B2 U)).trans (dense1Ops_keeps_v3 (B1 U))))
/-- The graph's preparation is still there when the second aggregation reads it. -/
theorem B5_v6 : B5 U (Proc.devRef .tc main_v6) = B1 U (Proc.devRef .tc main_v6) :=
  (dense2Ops_keeps_v6 (B4 U)).trans ((epi1Ops_keeps_v6 (B3 U)).trans ((agg1Ops_keeps_v6 (B2 U)).trans (dense1Ops_keeps_v6 (B1 U))))
/-- The graph's preparation is still there when the second aggregation reads it. -/
theorem B5_v28 : B5 U (Proc.devRef .tc main_v28) = B1 U (Proc.devRef .tc main_v28) :=
  (dense2Ops_keeps_v28 (B4 U)).trans ((epi1Ops_keeps_v28 (B3 U)).trans ((agg1Ops_keeps_v28 (B2 U)).trans (dense1Ops_keeps_v28 (B1 U))))

/-- The second bias, still as launched when the last epilogue reads it. -/
theorem B6_arg5 : B6 U (Proc.devRef .tc main_arg5) = U (Proc.devRef .tc main_arg5) :=
  (agg2Ops_keeps_arg5 (B5 U)).trans ((dense2Ops_keeps_arg5 (B4 U)).trans ((epi1Ops_keeps_arg5 (B3 U)).trans
    ((agg1Ops_keeps_arg5 (B2 U)).trans ((dense1Ops_keeps_arg5 (B1 U)).trans (graphOps_keeps_arg5 U)))))

/-- The row-wise log-softmax of the second aggregation's result plus b2: the reference's result. -/
theorem B7_epilogue : B7 U (Proc.devRef .tc main_v64)
    = biasLogSoftmax (F := F) (B6 U (Proc.devRef .tc main_v60)) (broadcastInDim S1x2 ![1] bcast_S2_S1x2_1 (U (Proc.devRef .tc main_arg5))) := by
  refine (epi2_value (B6 U)).trans ?_
  rw [B6_arg5 U]

end Cert.ReferenceIdeal.Hand

end
-- ==== Proof.SharedSteps.lean ====
/-
  The host operations of the kernel's program between its pallas_calls are, operation for operation, pieces of the
  reference: the graph's preparation (the source and the target index of every edge, a self-loop appended per node, and
  per edge the product of its end points' inverse square-root degrees) and, once per layer, the aggregation (gather the
  dense result's rows at the sources, scale by the edge's normalisation, add up at the targets). Here each such stretch of
  the kernel's program, run from any contents `W`, is matched with the reference's piece run from any contents `U` that
  agree with `W` on what the stretch reads: both sides are read and are the same term. The shared chain is never named,
  only matched. The one step the two spell differently is the bias: the kernel's program reshapes the vector to one row,
  the reference broadcasts it into one row; entry (0, j) of either is entry j of the vector.
-/
import proofs.«154451_j66357244723265_1_alg».proof.Proof.Gen.KernelIdeal.Frame
import proofs.«154451_j66357244723265_1_alg».proof.Proof.RefValue
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (W : Valuation τ sig (Elt F)) (U : Valuation Cert.ReferenceIdeal.τ Cert.ReferenceIdeal.sig (Elt F))

/-- What the one-pass reading of a stretch leaves unread, the operands of a concatenate, read by rewriting. -/
macro "read_operands" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The graph's preparation -/

set_option maxHeartbeats 32000000 in
/-- The source index of every edge, the nodes' self-loops appended. -/
theorem graph_src (h : W (Proc.devRef .tc main_arg1) = U (Proc.devRef .tc Cert.ReferenceIdeal.main_arg1)) :
    StableHlo.after hostOps0 W (Proc.devRef .tc main_v3)
      = StableHlo.after (Cert.ReferenceIdeal.Hand.graphOps (F := F)) U (Proc.devRef .tc Cert.ReferenceIdeal.main_v3) := by
  simp only [Cert.ReferenceIdeal.Hand.graphOps, Cert.ReferenceIdeal.Hand.afterGraph, Cert.ReferenceIdeal.Hand.dense1Ops, Cert.ReferenceIdeal.Hand.afterDense1, Cert.ReferenceIdeal.Hand.agg1Ops, Cert.ReferenceIdeal.Hand.afterAgg1, Cert.ReferenceIdeal.Hand.epi1Ops, Cert.ReferenceIdeal.Hand.afterEpi1, Cert.ReferenceIdeal.Hand.dense2Ops, Cert.ReferenceIdeal.Hand.afterDense2, Cert.ReferenceIdeal.Hand.agg2Ops, Cert.ReferenceIdeal.Hand.epi2Ops, Cert.ReferenceIdeal.ValueP.ops, List.take_succ_cons, List.take_zero, List.drop_succ_cons, List.drop_zero]
  after_results_simp
  read_operands
  rw [h]
  rfl

set_option maxHeartbeats 32000000 in
/-- The target index of every edge, the nodes' self-loops appended. -/
theorem graph_dst (h : W (Proc.devRef .tc main_arg1) = U (Proc.devRef .tc Cert.ReferenceIdeal.main_arg1)) :
    StableHlo.after hostOps0 W (Proc.devRef .tc main_v6)
      = StableHlo.after (Cert.ReferenceIdeal.Hand.graphOps (F := F)) U (Proc.devRef .tc Cert.ReferenceIdeal.main_v6) := by
  simp only [Cert.ReferenceIdeal.Hand.graphOps, Cert.ReferenceIdeal.Hand.afterGraph, Cert.ReferenceIdeal.Hand.dense1Ops, Cert.ReferenceIdeal.Hand.afterDense1, Cert.ReferenceIdeal.Hand.agg1Ops, Cert.ReferenceIdeal.Hand.afterAgg1, Cert.ReferenceIdeal.Hand.epi1Ops, Cert.ReferenceIdeal.Hand.afterEpi1, Cert.ReferenceIdeal.Hand.dense2Ops, Cert.ReferenceIdeal.Hand.afterDense2, Cert.ReferenceIdeal.Hand.agg2Ops, Cert.ReferenceIdeal.Hand.epi2Ops, Cert.ReferenceIdeal.ValueP.ops, List.take_succ_cons, List.take_zero, List.drop_succ_cons, List.drop_zero]
  after_results_simp
  read_operands
  rw [h]
  rfl

set_option maxHeartbeats 64000000 in
/-- Per edge, the product of its end points' inverse square-root degrees (a node's degree counted over the targets and at least 1). -/
theorem graph_norm (h : W (Proc.devRef .tc main_arg1) = U (Proc.devRef .tc Cert.ReferenceIdeal.main_arg1)) :
    StableHlo.after hostOps0 W (Proc.devRef .tc main_v28)
      = StableHlo.after (Cert.ReferenceIdeal.Hand.graphOps (F := F)) U (Proc.devRef .tc Cert.ReferenceIdeal.main_v28) := by
  simp only [Cert.ReferenceIdeal.Hand.graphOps, Cert.ReferenceIdeal.Hand.afterGraph, Cert.ReferenceIdeal.Hand.dense1Ops, Cert.ReferenceIdeal.Hand.afterDense1, Cert.ReferenceIdeal.Hand.agg1Ops, Cert.ReferenceIdeal.Hand.afterAgg1, Cert.ReferenceIdeal.Hand.epi1Ops, Cert.ReferenceIdeal.Hand.afterEpi1, Cert.ReferenceIdeal.Hand.dense2Ops, Cert.ReferenceIdeal.Hand.afterDense2, Cert.ReferenceIdeal.Hand.agg2Ops, Cert.ReferenceIdeal.Hand.epi2Ops, Cert.ReferenceIdeal.ValueP.ops, List.take_succ_cons, List.take_zero, List.drop_succ_cons, List.drop_zero]
  after_results_simp
  read_operands
  rw [h]
  rfl

/-! The first stretch writes none of the float arguments. -/
set_option maxHeartbeats 4000000 in
theorem keep0_arg0 : StableHlo.after hostOps0 W (Proc.devRef .tc main_arg0) = W (Proc.devRef .tc main_arg0) := by
  after_results_simp <;> rfl
set_option maxHeartbeats 4000000 in
theorem keep0_arg2 : StableHlo.after hostOps0 W (Proc.devRef .tc main_arg2) = W (Proc.devRef .tc main_arg2) := by
  after_results_simp <;> rfl
set_option maxHeartbeats 4000000 in
theorem keep0_arg3 : StableHlo.after hostOps0 W (Proc.devRef .tc main_arg3) = W (Proc.devRef .tc main_arg3) := by
  after_results_simp <;> rfl
set_option maxHeartbeats 4000000 in
theorem keep0_arg4 : StableHlo.after hostOps0 W (Proc.devRef .tc main_arg4) = W (Proc.devRef .tc main_arg4) := by
  after_results_simp <;> rfl
set_option maxHeartbeats 4000000 in
theorem keep0_arg5 : StableHlo.after hostOps0 W (Proc.devRef .tc main_arg5) = W (Proc.devRef .tc main_arg5) := by
  after_results_simp <;> rfl

/-! ## The first layer's aggregation, and its bias as a row -/

set_option maxHeartbeats 16000000 in
/-- The dense result's rows gathered at the sources, scaled, added up at the targets: the same on both sides. -/
theorem agg1_step (h29 : W (Proc.devRef .tc main_v29) = U (Proc.devRef .tc Cert.ReferenceIdeal.main_v29)) (h3 : W (Proc.devRef .tc main_v3) = U (Proc.devRef .tc Cert.ReferenceIdeal.main_v3))
    (h6 : W (Proc.devRef .tc main_v6) = U (Proc.devRef .tc Cert.ReferenceIdeal.main_v6)) (h28 : W (Proc.devRef .tc main_v28) = U (Proc.devRef .tc Cert.ReferenceIdeal.main_v28)) :
    StableHlo.after hostOps1 W (Proc.devRef .tc main_v42)
      = StableHlo.after (Cert.ReferenceIdeal.Hand.agg1Ops (F := F)) U (Proc.devRef .tc Cert.ReferenceIdeal.main_v42) := by
  simp only [Cert.ReferenceIdeal.Hand.graphOps, Cert.ReferenceIdeal.Hand.afterGraph, Cert.ReferenceIdeal.Hand.dense1Ops, Cert.ReferenceIdeal.Hand.afterDense1, Cert.ReferenceIdeal.Hand.agg1Ops, Cert.ReferenceIdeal.Hand.afterAgg1, Cert.ReferenceIdeal.Hand.epi1Ops, Cert.ReferenceIdeal.Hand.afterEpi1, Cert.ReferenceIdeal.Hand.dense2Ops, Cert.ReferenceIdeal.Hand.afterDense2, Cert.ReferenceIdeal.Hand.agg2Ops, Cert.ReferenceIdeal.Hand.epi2Ops, Cert.ReferenceIdeal.ValueP.ops, List.take_succ_cons, List.take_zero, List.drop_succ_cons, List.drop_zero]
  after_results_simp
  rw [h29, h3, h6, h28]
  rfl

set_option maxHeartbeats 4000000 in
/-- The first bias as a [1,8] row: the vector reshaped is the vector broadcast along a new leading axis. -/
theorem bias1_row : StableHlo.after hostOps1 W (Proc.devRef .tc main_v43)
    = broadcastInDim Cert.ReferenceIdeal.S1x8 ![1] Cert.ReferenceIdeal.Gen.bcast_S8_S1x8_1 (W (Proc.devRef .tc main_arg3)) := by
  after_results_simp
  generalize W (Proc.devRef .tc main_arg3) = x
  funext i
  show shapeCast S1x8 x shapeCasts_S8_S1x8 i = _
  rw [shapeCast_addUnit_apply ![8] x shapeCasts_S8_S1x8 i]
  refine (broadcastInDim_apply _ Cert.ReferenceIdeal.Gen.bcast_S8_S1x8_1 x i (fun a => i a.succ) (fun a => ?_)).symm
  match a with
  | ⟨0, _⟩ => show (i 1).val = if (8 : Nat) = 1 then 0 else (i 1).val; rw [if_neg (by decide)]

/-! The second stretch writes neither the graph's preparation nor the later arguments. -/
set_option maxHeartbeats 4000000 in
theorem keep1_v3 : StableHlo.after hostOps1 W (Proc.devRef .tc main_v3) = W (Proc.devRef .tc main_v3) := by
  after_results_simp <;> rfl
set_option maxHeartbeats 4000000 in
theorem keep1_v6 : StableHlo.after hostOps1 W (Proc.devRef .tc main_v6) = W (Proc.devRef .tc main_v6) := by
  after_results_simp <;> rfl
set_option maxHeartbeats 4000000 in
theorem keep1_v28 : StableHlo.after hostOps1 W (Proc.devRef .tc main_v28) = W (Proc.devRef .tc main_v28) := by
  after_results_simp <;> rfl
set_option maxHeartbeats 4000000 in
theorem keep1_arg4 : StableHlo.after hostOps1 W (Proc.devRef .tc main_arg4) = W (Proc.devRef .tc main_arg4) := by
  after_results_simp <;> rfl
set_option maxHeartbeats 4000000 in
theorem keep1_arg5 : StableHlo.after hostOps1 W (Proc.devRef .tc main_arg5) = W (Proc.devRef .tc main_arg5) := by
  after_results_simp <;> rfl

/-! ## The second layer's aggregation, and its bias as a row -/

set_option maxHeartbeats 16000000 in
/-- The second aggregation, likewise. -/
theorem agg2_step (h45 : W (Proc.devRef .tc main_v45) = U (Proc.devRef .tc Cert.ReferenceIdeal.main_v47)) (h3 : W (Proc.devRef .tc main_v3) = U (Proc.devRef .tc Cert.ReferenceIdeal.main_v3))
    (h6 : W (Proc.devRef .tc main_v6) = U (Proc.devRef .tc Cert.ReferenceIdeal.main_v6)) (h28 : W (Proc.devRef .tc main_v28) = U (Proc.devRef .tc Cert.ReferenceIdeal.main_v28)) :
    StableHlo.after hostOps3 W (Proc.devRef .tc main_v58)
      = StableHlo.after (Cert.ReferenceIdeal.Hand.agg2Ops (F := F)) U (Proc.devRef .tc Cert.ReferenceIdeal.main_v60) := by
  simp only [Cert.ReferenceIdeal.Hand.graphOps, Cert.ReferenceIdeal.Hand.afterGraph, Cert.ReferenceIdeal.Hand.dense1Ops, Cert.ReferenceIdeal.Hand.afterDense1, Cert.ReferenceIdeal.Hand.agg1Ops, Cert.ReferenceIdeal.Hand.afterAgg1, Cert.ReferenceIdeal.Hand.epi1Ops, Cert.ReferenceIdeal.Hand.afterEpi1, Cert.ReferenceIdeal.Hand.dense2Ops, Cert.ReferenceIdeal.Hand.afterDense2, Cert.ReferenceIdeal.Hand.agg2Ops, Cert.ReferenceIdeal.Hand.epi2Ops, Cert.ReferenceIdeal.ValueP.ops, List.take_succ_cons, List.take_zero, List.drop_succ_cons, List.drop_zero]
  after_results_simp
  rw [h45, h3, h6, h28]
  rfl

set_option maxHeartbeats 4000000 in
/-- The second bias as a [1,2] row. -/
theorem bias2_row : StableHlo.after hostOps3 W (Proc.devRef .tc main_v59)
    = broadcastInDim Cert.ReferenceIdeal.S1x2 ![1] Cert.ReferenceIdeal.Gen.bcast_S2_S1x2_1 (W (Proc.devRef .tc main_arg5)) := by
  after_results_simp
  generalize W (Proc.devRef .tc main_arg5) = x
  funext i
  show shapeCast S1x2 x shapeCasts_S2_S1x2 i = _
  rw [shapeCast_addUnit_apply ![2] x shapeCasts_S2_S1x2 i]
  refine (broadcastInDim_apply _ Cert.ReferenceIdeal.Gen.bcast_S2_S1x2_1 x i (fun a => i a.succ) (fun a => ?_)).symm
  match a with
  | ⟨0, _⟩ => show (i 1).val = if (2 : Nat) = 1 then 0 else (i 1).val; rw [if_neg (by decide)]

end Cert.KernelIdeal.Hand

end
-- ==== Proof.Linear1.lean ====
/-
  The first dense layer's pallas_call: 100 grid points, point t multiplying rows 10000·t … 10000·t + 9999 of x ([1000000,3])
  by the whole of W1 ([3,8]) into the same rows of the result. Read at Ideal (a change of float format is the identity, a
  product into a zero accumulator is the plain sum over the contracted axis), the result array after the region is x · W1.
-/
import proofs.«154451_j66357244723265_1_alg».proof.Proof.Gen.KernelIdeal.Frame
import proofs.«154451_j66357244723265_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.Linear1

open Cert.KernelIdeal Cert.KernelIdeal.Gen

/-! ## One block's product, entry by entry -/

/-- The block product's left operand index at output entry `i` and contraction index `q`: its row is `i`'s row. -/
theorem lhs_blk_0 (i : S10000x8.Idx) (q : dot_S10000x3_S3x8_S10000x8_1_0_0_1_n_n.contr.Idx) :
    (dot_S10000x3_S3x8_S10000x8_1_0_0_1_n_n.lhsIdx i q 0).val = (i 0).val := by
  unfold DotDims.lhsIdx
  rw [dif_neg (show ¬(0 : Fin S10000x3.rank) ∈ dot_S10000x3_S3x8_S10000x8_1_0_0_1_n_n.lhsBatch by decide), dif_pos (show (0 : Fin S10000x3.rank) ∈ dot_S10000x3_S3x8_S10000x8_1_0_0_1_n_n.lhsNonContracting by decide)]
  rfl
/-- Its column is the contraction index. -/
theorem lhs_blk_1 (i : S10000x8.Idx) (q : dot_S10000x3_S3x8_S10000x8_1_0_0_1_n_n.contr.Idx) :
    (dot_S10000x3_S3x8_S10000x8_1_0_0_1_n_n.lhsIdx i q 1).val = (q ⟨0, by decide⟩).val :=
  dot_S10000x3_S3x8_S10000x8_1_0_0_1_n_n.lhsIdx_val_of_single rfl i q
/-- The right operand's row is the contraction index. -/
theorem rhs_blk_0 (i : S10000x8.Idx) (q : dot_S10000x3_S3x8_S10000x8_1_0_0_1_n_n.contr.Idx) :
    (dot_S10000x3_S3x8_S10000x8_1_0_0_1_n_n.rhsIdx i q 0).val = (q ⟨0, by decide⟩).val :=
  dot_S10000x3_S3x8_S10000x8_1_0_0_1_n_n.rhsIdx_val_of_single rfl i q
/-- Its column is `i`'s column. -/
theorem rhs_blk_1 (i : S10000x8.Idx) (q : dot_S10000x3_S3x8_S10000x8_1_0_0_1_n_n.contr.Idx) :
    (dot_S10000x3_S3x8_S10000x8_1_0_0_1_n_n.rhsIdx i q 1).val = (i 1).val := by
  unfold DotDims.rhsIdx
  rw [dif_neg (show ¬(1 : Fin S3x8.rank) ∈ dot_S10000x3_S3x8_S10000x8_1_0_0_1_n_n.rhsBatch by decide), dif_pos (show (1 : Fin S3x8.rank) ∈ dot_S10000x3_S3x8_S10000x8_1_0_0_1_n_n.rhsNonContracting by decide)]
  rfl

/-- Entry (r, j) of the body's payload on blocks `x0`, `x1`: Σ_k x0(r, k) · x1(k, j) — the two changes of float format
    are the identity and the accumulator is zero, so the product is the plain sum over the 3 contracted columns. -/
theorem pay_apply (x0 : Vec Ideal S10000x3 .f32) (x1 : Vec Ideal S3x8 .f32) (r : Fin 10000) (j : Fin 8) :
    k0_pay1 (F := Ideal) x0 x1 (ValueIdx.ix2 r j) = ∑ k : Fin 3, x0 (ValueIdx.ix2 r k) * x1 (ValueIdx.ix2 k j) := by
  unfold k0_pay1
  refine (Ideal.matmul_constant_zero_apply dot_S10000x3_S3x8_S10000x8_1_0_0_1_n_n none _ _ (ValueIdx.ix2 r j)).trans ?_
  rw [← Equiv.sum_comp (ValueIdx.contrEquiv1 dot_S10000x3_S3x8_S10000x8_1_0_0_1_n_n 3 rfl rfl).symm]
  refine Finset.sum_congr rfl fun k _ => ?_
  have hk := ValueIdx.contrEquiv1_symm_val dot_S10000x3_S3x8_S10000x8_1_0_0_1_n_n 3 rfl rfl k
  have el : dot_S10000x3_S3x8_S10000x8_1_0_0_1_n_n.lhsIdx (ValueIdx.ix2 r j) ((ValueIdx.contrEquiv1 dot_S10000x3_S3x8_S10000x8_1_0_0_1_n_n 3 rfl rfl).symm k) = ValueIdx.ix2 r k := funext fun a => Fin.ext (by
    match a with
    | ⟨0, _⟩ => exact lhs_blk_0 _ _
    | ⟨1, _⟩ => exact (lhs_blk_1 _ _).trans hk)
  have er : dot_S10000x3_S3x8_S10000x8_1_0_0_1_n_n.rhsIdx (ValueIdx.ix2 r j) ((ValueIdx.contrEquiv1 dot_S10000x3_S3x8_S10000x8_1_0_0_1_n_n 3 rfl rfl).symm k) = ValueIdx.ix2 k j := funext fun a => Fin.ext (by
    match a with
    | ⟨0, _⟩ => exact (rhs_blk_0 _ _).trans hk
    | ⟨1, _⟩ => exact rhs_blk_1 _ _)
  rw [el, er]
  rfl

/-! ## The whole arrays' product, entry by entry -/

/-- The whole product's left operand index at output entry `i` and contraction index `q`: its row is `i`'s row. -/
theorem lhs_arr_0 (i : Cert.ReferenceIdeal.S1000000x8.Idx) (q : Cert.ReferenceIdeal.dot_S1000000x3_S3x8_S1000000x8_1_0_0_1_n_n.contr.Idx) :
    (Cert.ReferenceIdeal.dot_S1000000x3_S3x8_S1000000x8_1_0_0_1_n_n.lhsIdx i q 0).val = (i 0).val := by
  unfold DotDims.lhsIdx
  rw [dif_neg (show ¬(0 : Fin Cert.ReferenceIdeal.S1000000x3.rank) ∈ Cert.ReferenceIdeal.dot_S1000000x3_S3x8_S1000000x8_1_0_0_1_n_n.lhsBatch by decide), dif_pos (show (0 : Fin Cert.ReferenceIdeal.S1000000x3.rank) ∈ Cert.ReferenceIdeal.dot_S1000000x3_S3x8_S1000000x8_1_0_0_1_n_n.lhsNonContracting by decide)]
  rfl
/-- Its column is the contraction index. -/
theorem lhs_arr_1 (i : Cert.ReferenceIdeal.S1000000x8.Idx) (q : Cert.ReferenceIdeal.dot_S1000000x3_S3x8_S1000000x8_1_0_0_1_n_n.contr.Idx) :
    (Cert.ReferenceIdeal.dot_S1000000x3_S3x8_S1000000x8_1_0_0_1_n_n.lhsIdx i q 1).val = (q ⟨0, by decide⟩).val :=
  Cert.ReferenceIdeal.dot_S1000000x3_S3x8_S1000000x8_1_0_0_1_n_n.lhsIdx_val_of_single rfl i q
/-- The right operand's row is the contraction index. -/
theorem rhs_arr_0 (i : Cert.ReferenceIdeal.S1000000x8.Idx) (q : Cert.ReferenceIdeal.dot_S1000000x3_S3x8_S1000000x8_1_0_0_1_n_n.contr.Idx) :
    (Cert.ReferenceIdeal.dot_S1000000x3_S3x8_S1000000x8_1_0_0_1_n_n.rhsIdx i q 0).val = (q ⟨0, by decide⟩).val :=
  Cert.ReferenceIdeal.dot_S1000000x3_S3x8_S1000000x8_1_0_0_1_n_n.rhsIdx_val_of_single rfl i q
/-- Its column is `i`'s column. -/
theorem rhs_arr_1 (i : Cert.ReferenceIdeal.S1000000x8.Idx) (q : Cert.ReferenceIdeal.dot_S1000000x3_S3x8_S1000000x8_1_0_0_1_n_n.contr.Idx) :
    (Cert.ReferenceIdeal.dot_S1000000x3_S3x8_S1000000x8_1_0_0_1_n_n.rhsIdx i q 1).val = (i 1).val := by
  unfold DotDims.rhsIdx
  rw [dif_neg (show ¬(1 : Fin Cert.ReferenceIdeal.S3x8.rank) ∈ Cert.ReferenceIdeal.dot_S1000000x3_S3x8_S1000000x8_1_0_0_1_n_n.rhsBatch by decide), dif_pos (show (1 : Fin Cert.ReferenceIdeal.S3x8.rank) ∈ Cert.ReferenceIdeal.dot_S1000000x3_S3x8_S1000000x8_1_0_0_1_n_n.rhsNonContracting by decide)]
  rfl

/-- Entry (r, j) of x · w: Σ_k x(r, k) · w(k, j). -/
theorem linear1_apply (x : (⟨Cert.ReferenceIdeal.S1000000x3, .f32⟩ : BufTy).Contents (Elt Ideal)) (w : (⟨Cert.ReferenceIdeal.S3x8, .f32⟩ : BufTy).Contents (Elt Ideal))
    (r : Fin 1000000) (j : Fin 8) :
    Cert.ReferenceIdeal.Hand.linear1 (F := Ideal) x w (ValueIdx.ix2 r j) = ∑ k : Fin 3, x (ValueIdx.ix2 r k) * w (ValueIdx.ix2 k j) := by
  unfold Cert.ReferenceIdeal.Hand.linear1
  simp only [Host.dotGeneral]
  rw [Ideal.dotGeneral_apply, ← Equiv.sum_comp (ValueIdx.contrEquiv1 Cert.ReferenceIdeal.dot_S1000000x3_S3x8_S1000000x8_1_0_0_1_n_n 3 rfl rfl).symm]
  refine Finset.sum_congr rfl fun k _ => ?_
  have hk := ValueIdx.contrEquiv1_symm_val Cert.ReferenceIdeal.dot_S1000000x3_S3x8_S1000000x8_1_0_0_1_n_n 3 rfl rfl k
  have el : Cert.ReferenceIdeal.dot_S1000000x3_S3x8_S1000000x8_1_0_0_1_n_n.lhsIdx (ValueIdx.ix2 r j) ((ValueIdx.contrEquiv1 Cert.ReferenceIdeal.dot_S1000000x3_S3x8_S1000000x8_1_0_0_1_n_n 3 rfl rfl).symm k) = ValueIdx.ix2 r k := funext fun a => Fin.ext (by
    match a with
    | ⟨0, _⟩ => exact lhs_arr_0 _ _
    | ⟨1, _⟩ => exact (lhs_arr_1 _ _).trans hk)
  have er : Cert.ReferenceIdeal.dot_S1000000x3_S3x8_S1000000x8_1_0_0_1_n_n.rhsIdx (ValueIdx.ix2 r j) ((ValueIdx.contrEquiv1 Cert.ReferenceIdeal.dot_S1000000x3_S3x8_S1000000x8_1_0_0_1_n_n 3 rfl rfl).symm k) = ValueIdx.ix2 k j := funext fun a => Fin.ext (by
    match a with
    | ⟨0, _⟩ => exact (rhs_arr_0 _ _).trans hk
    | ⟨1, _⟩ => exact rhs_arr_1 _ _)
  rw [el, er]

-- the TensorCore's buffer contents when the region is entered (any: the region's value is a function of them)
variable (V : (c : Dev nD) → (b : Ref sig .tc) → Buf (Elt Ideal) ((c : Thread nD τ).loc b))

/-! ## From the points' blocks to the array -/

/-- The two zero offsets of a whole-block access, however spelt. -/
theorem offs_zero : (![0, 0] : Fin 2 → Nat) = fun _ => 0 := funext fun a => by fin_cases a <;> rfl

/-- The printed index maps over the grid: point `t` takes row block `t` of x and of the result, and the one block of w. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A grid point is below 100. -/
theorem point_lt (t : Fin cfg0.N) : t.val < 100 := by
  have hN : cfg0.N = 100 := N_0
  have := t.isLt
  omega

/-- Point `t`'s block of x is rows 10000·t … 10000·t + 9999 of x: its entry (r, k) is x(10000·t + r, k). -/
theorem xblk_apply (c : Dev nD) (t : Fin cfg0.N) (r : Fin 10000) (k : Fin 3) (hr : t.val * 10000 + r.val < 1000000) :
    (iblk0 V c 0 t : Vec Ideal S10000x3 .f32) (ValueIdx.ix2 r k)
      = (V c main_arg0 : S1000000x3.Idx → Elt Ideal .f32) (ValueIdx.ix2 (⟨t.val * 10000 + r.val, hr⟩ : Fin 1000000) k) := by
  obtain ⟨e0, e1, -, -, -, -⟩ := idx_facts t
  show V c main_arg0 (((cfg0.win 0).blk t).view.emb (ValueIdx.ix2 r k)) = V c main_arg0 _
  congr 1
  funext a
  apply Fin.ext
  match a with
  | ⟨0, _⟩ => show win0_0.index t (0 : Fin 2) * 10000 + 1 * r.val = t.val * 10000 + r.val; rw [e0]; omega
  | ⟨1, _⟩ => show win0_0.index t (1 : Fin 2) * 3 + 1 * k.val = k.val; rw [e1]; omega

/-- Every point's block of w is the whole of w. -/
theorem wblk_apply (c : Dev nD) (t : Fin cfg0.N) (k : Fin 3) (j : Fin 8) :
    (iblk0 V c 1 t : Vec Ideal S3x8 .f32) (ValueIdx.ix2 k j) = (V c main_arg2 : S3x8.Idx → Elt Ideal .f32) (ValueIdx.ix2 k j) := by
  obtain ⟨-, -, e2, e3, -, -⟩ := idx_facts t
  show V c main_arg2 (((cfg0.win 1).blk t).view.emb (ValueIdx.ix2 k j)) = V c main_arg2 _
  congr 1
  funext a
  apply Fin.ext
  match a with
  | ⟨0, _⟩ => show win0_1.index t (0 : Fin 2) * 3 + 1 * k.val = k.val; rw [e2]; omega
  | ⟨1, _⟩ => show win0_1.index t (1 : Fin 2) * 8 + 1 * j.val = j.val; rw [e3]; omega

/-- A block `x0` that is rows 10000·n … of x, times a block `x1` that is w, is the same rows of x · w. -/
theorem blk_eq (x : (⟨Cert.ReferenceIdeal.S1000000x3, .f32⟩ : BufTy).Contents (Elt Ideal)) (w : (⟨Cert.ReferenceIdeal.S3x8, .f32⟩ : BufTy).Contents (Elt Ideal))
    (x0 : Vec Ideal S10000x3 .f32) (x1 : Vec Ideal S3x8 .f32) (n : Nat) (r : Fin 10000) (j : Fin 8) (hr : n * 10000 + r.val < 1000000)
    (h0 : ∀ k : Fin 3, x0 (ValueIdx.ix2 r k) = x (ValueIdx.ix2 (⟨n * 10000 + r.val, hr⟩ : Fin 1000000) k))
    (h1 : ∀ k : Fin 3, x1 (ValueIdx.ix2 k j) = w (ValueIdx.ix2 k j)) :
    k0_pay1 (F := Ideal) x0 x1 (ValueIdx.ix2 r j)
      = Cert.ReferenceIdeal.Hand.linear1 (F := Ideal) x w (ValueIdx.ix2 (⟨n * 10000 + r.val, hr⟩ : Fin 1000000) j) := by
  rw [pay_apply, linear1_apply]
  exact Finset.sum_congr rfl fun k _ => by rw [h0 k, h1 k]

/-- What point `t` writes back is block `t` of x · w of the arrays the region was entered with. -/
theorem flushed_eq (c : Dev nD) (t : Fin cfg0.N) :
    (dat0 (F := Ideal) V c).flushed 2 t
      = ((cfg0.win 2).blk t).view.read (Elt Ideal) (Cert.ReferenceIdeal.Hand.linear1 (F := Ideal) (V c main_arg0) (V c main_arg2)) := by
  show (cfg0.win 2).cut (grid0.coords t) ((dat0 V c).after 2 t) = _
  rw [after0_2]
  unfold out0_2
  rw [View.canon_unit_zero offs_zero]
  simp only [View.ld_unit_zero (S := S10000x3) offs_zero, View.ld_unit_zero (S := S3x8) offs_zero]
  funext j
  obtain ⟨-, -, -, -, e4, e5⟩ := idx_facts t
  have ht := point_lt t
  have hj0 : (j 0).val < 10000 := (j 0).isLt
  have hj1 : (j 1).val < 8 := (j 1).isLt
  have hr : t.val * 10000 + (j 0).val < 1000000 := by omega
  -- the block index by its coordinates, and the array index it stands for: row 10000·t + its row, its column
  have hL : (j : S10000x8.Idx) = ValueIdx.ix2 (⟨(j 0).val, hj0⟩ : Fin 10000) (⟨(j 1).val, hj1⟩ : Fin 8) := by
    funext a
    match a with
    | ⟨0, _⟩ => rfl
    | ⟨1, _⟩ => rfl
  have hR : (((cfg0.win 2).blk t).view.emb j : S1000000x8.Idx)
      = ValueIdx.ix2 (⟨t.val * 10000 + (j 0).val, hr⟩ : Fin 1000000) (⟨(j 1).val, hj1⟩ : Fin 8) := by
    funext a
    apply Fin.ext
    match a with
    | ⟨0, _⟩ => show win0_2.index t (0 : Fin 2) * 10000 + 1 * (j 0).val = t.val * 10000 + (j 0).val; rw [e4]; omega
    | ⟨1, _⟩ => show win0_2.index t (1 : Fin 2) * 8 + 1 * (j 1).val = (j 1).val; rw [e5]; omega
  show k0_pay1 (F := Ideal) (iblk0 V c 0 t) (iblk0 V c 1 t) j
    = Cert.ReferenceIdeal.Hand.linear1 (F := Ideal) (V c main_arg0) (V c main_arg2) (((cfg0.win 2).blk t).view.emb j)
  refine (congrArg (k0_pay1 (F := Ideal) (iblk0 V c 0 t) (iblk0 V c 1 t)) hL).trans ?_
  refine (blk_eq (V c main_arg0) (V c main_arg2) (iblk0 V c 0 t) (iblk0 V c 1 t) t.val ⟨(j 0).val, hj0⟩ ⟨(j 1).val, hj1⟩ hr
    (fun k => xblk_apply V c t ⟨(j 0).val, hj0⟩ k hr) (fun k => wblk_apply V c t k ⟨(j 1).val, hj1⟩)).trans ?_
  exact (congrArg (Cert.ReferenceIdeal.Hand.linear1 (F := Ideal) (V c main_arg0) (V c main_arg2)) hR).symm

/-- An index of the result array is in point `t`'s block iff each coordinate is in the block's range on its axis. -/
theorem mem_blk (t : Fin cfg0.N) (i : S1000000x8.Idx) :
    i ∈ ((cfg0.win 2).blk t).view.set ↔ ∀ a : Fin 2, win0_2.index t a * S10000x8.size a ≤ (i a).val ∧ (i a).val < win0_2.index t a * S10000x8.size a + S10000x8.size a := by
  show i ∈ ((View.whole main_v29).slice (win0_2.rect t)).set ↔ _
  rw [View.set_slice_whole, Rect.mem_set_unit]
  exact Iff.rfl

/-- Every entry of the result array is written back by a point: row r by point r / 10000. -/
theorem cover (i : S1000000x8.Idx) :
    ∃ t : Fin cfg0.N, (cfg0.win 2).flush t = true ∧ i ∈ ((cfg0.win 2).blk t).view.set := by
  have hN : cfg0.N = 100 := N_0
  have hi0 : (i 0).val < 1000000 := (i 0).isLt
  have hi1 : (i 1).val < 8 := (i 1).isLt
  have hq : (i 0).val / 10000 < cfg0.N := by omega
  obtain ⟨-, -, -, -, e4, e5⟩ := idx_facts ⟨(i 0).val / 10000, hq⟩
  have e4' : win0_2.index ⟨(i 0).val / 10000, hq⟩ (0 : Fin 2) = (i 0).val / 10000 := e4
  refine ⟨⟨(i 0).val / 10000, hq⟩, flush0_2 _, ?_⟩
  rw [mem_blk]
  intro a
  match a with
  | ⟨0, _⟩ =>
    show win0_2.index ⟨(i 0).val / 10000, hq⟩ (0 : Fin 2) * 10000 ≤ (i 0).val
      ∧ (i 0).val < win0_2.index ⟨(i 0).val / 10000, hq⟩ (0 : Fin 2) * 10000 + 10000
    rw [e4']; omega
  | ⟨1, _⟩ =>
    show win0_2.index ⟨(i 0).val / 10000, hq⟩ (1 : Fin 2) * 8 ≤ (i 1).val
      ∧ (i 1).val < win0_2.index ⟨(i 0).val / 10000, hq⟩ (1 : Fin 2) * 8 + 8
    rw [e5]; omega

/-- After the region its result array is the product of the two arrays it was entered with. -/
theorem linear1_array (c : Dev nD) :
    (dat0 (F := Ideal) V c).arrAt 2 cfg0.N
      = Cert.ReferenceIdeal.Hand.linear1 (F := Ideal) (V c main_arg0) (V c main_arg2) :=
  (dat0 (F := Ideal) V c).arrAt_eq_of_cover 2 _ (fun t _ => flushed_eq V c t) cover

end Cert.KernelIdeal.Hand.Linear1

end
-- ==== Proof.BiasRelu.lean ====
/-
  The first layer's epilogue: 100 grid points, point t taking rows 10000·t … of the aggregated array ([1000000,8]) and the whole
  [1,8] bias row, and writing max (a + b, 0) into the same rows. After the region the result array is `biasRelu` of the two.
-/
import proofs.«154451_j66357244723265_1_alg».proof.Proof.Gen.KernelIdeal.Frame
import proofs.«154451_j66357244723265_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.BiasRelu

open Cert.KernelIdeal Cert.KernelIdeal.Gen

/-- The offsets (0, 0) are the constant zero function. -/
theorem biasRelu_zeroOffsets : (![0, 0] : Fin 2 → Nat) = fun _ => 0 := funext fun a => by fin_cases a <;> rfl

/-- The block indices over the grid: at point t the array's window and the result's are at block (t, 0), the bias row's at (0, 0). -/
theorem biasRelu_blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's result at entry (r, j) of its block: max (x(r,j) + y(0,j), 0), the bias row y read at column j. -/
theorem biasRelu_payload_apply (x0 : Vec Ideal S10000x8 .f32) (x1 : Vec Ideal S1x8 .f32) (j : S10000x8.Idx) (k : S1x8.Idx)
    (hk0 : (k 0).val = 0) (hk1 : (k 1).val = (j 1).val) :
    k1_pay1 x0 x1 j = FloatOps.maximumf (F := Ideal) (FloatOps.addf (F := Ideal) (x0 j) (x1 k)) (FloatOps.ofBits (F := Ideal) .f32 0x00000000#32) := by
  unfold k1_pay1
  rw [shapeCast_self, shapeCast_self]
  show FloatOps.maximumf (F := Ideal) (φ := .f32) (FloatOps.addf (F := Ideal) (φ := .f32) (x0 j) (broadcastTo S10000x8 x1 broadcasts_S1x8_S10000x8 j)) (FloatOps.ofBits (F := Ideal) .f32 0x00000000#32) = _
  rw [broadcastTo_apply x1 broadcasts_S1x8_S10000x8 j k (fun a => match a with
    | ⟨0, _⟩ => by show (k 0).val = if (1 : Nat) = 1 then 0 else (j 0).val; rw [if_pos rfl, hk0]
    | ⟨1, _⟩ => by show (k 1).val = if (8 : Nat) = 1 then 0 else (j 1).val; rw [if_neg (by decide), hk1])]

/-- The specification at entry (r, j) of the array: max (a(r,j) + b(0,j), 0). -/
theorem biasRelu_spec_apply (a : Vec Ideal S1000000x8 .f32) (b : Vec Ideal S1x8 .f32) (i : S1000000x8.Idx) (k : S1x8.Idx)
    (hk0 : (k 0).val = 0) (hk1 : (k 1).val = (i 1).val) :
    Cert.ReferenceIdeal.Hand.biasRelu (F := Ideal) a b i
      = FloatOps.maximumf (F := Ideal) (FloatOps.addf (F := Ideal) (a i) (b k)) (FloatOps.ofBits (F := Ideal) .f32 0x00000000#32) := by
  unfold Cert.ReferenceIdeal.Hand.biasRelu
  show FloatOps.maximumf (F := Ideal) (φ := .f32) (FloatOps.addf (F := Ideal) (φ := .f32) (a i)
      (broadcastInDim Cert.ReferenceIdeal.S1000000x8 ![0, 1] Cert.ReferenceIdeal.Gen.bcast_S1x8_S1000000x8_0_1 b i))
    (FloatOps.ofBits (F := Ideal) .f32 0x00000000#32) = _
  rw [broadcastInDim_apply _ Cert.ReferenceIdeal.Gen.bcast_S1x8_S1000000x8_0_1 b i k (fun a => match a with
    | ⟨0, _⟩ => by show (k 0).val = if (1 : Nat) = 1 then 0 else (i 0).val; rw [if_pos rfl, hk0]
    | ⟨1, _⟩ => by show (k 1).val = if (8 : Nat) = 1 then 0 else (i 1).val; rw [if_neg (by decide), hk1])]

-- the TensorCore's buffer contents when the region is entered (any: the region's value is a function of them)
variable (V : (c : Dev nD) → (b : Ref sig .tc) → Buf (Elt Ideal) ((c : Thread nD τ).loc b))

/-- Entry (r, j) of what the body leaves at point t is the specification at row 10000·t + r, column j: the array's block and
    the result's sit at the same rows, and the bias row's one block is the row itself. -/
theorem biasRelu_flushed_entry (c : Dev nD) (t : Fin cfg1.N) (j : S10000x8.Idx) :
    k1_pay1 (iblk1 V c 0 t) (iblk1 V c 1 t) j
      = Cert.ReferenceIdeal.Hand.biasRelu (F := Ideal) (V c main_v42) (V c main_v43) (((cfg1.win 2).blk t).view.emb j) := by
  obtain ⟨e00, e01, e10, e11, e20, e21⟩ := biasRelu_blockIndex t
  have hj0 : (j 0).val < 10000 := (j 0).isLt
  have hj1 : (j 1).val < 8 := (j 1).isLt
  -- the bias row's entry in j's column
  obtain ⟨k, hk0, hk1⟩ : ∃ k : S1x8.Idx, (k 0).val = 0 ∧ (k 1).val = (j 1).val :=
    ⟨ValueIdx.ix2 (⟨0, Nat.one_pos⟩ : Fin 1) (⟨(j 1).val, hj1⟩ : Fin 8), rfl, rfl⟩
  refine (biasRelu_payload_apply (iblk1 V c 0 t) (iblk1 V c 1 t) j k hk0 hk1).trans ?_
  refine Eq.trans ?_ (biasRelu_spec_apply (V c main_v42) (V c main_v43) (((cfg1.win 2).blk t).view.emb j) k hk0 ?_).symm
  · -- the two blocks read where the result's block sits
    have h0 : ((cfg1.win 0).blk t).view.emb j = ((cfg1.win 2).blk t).view.emb j := by
      funext a; apply Fin.ext
      match a with
      | ⟨0, _⟩ => show win1_0.index t (0 : Fin 2) * 10000 + 1 * (j 0).val = win1_2.index t (0 : Fin 2) * 10000 + 1 * (j 0).val; rw [e00, e20]
      | ⟨1, _⟩ => show win1_0.index t (1 : Fin 2) * 8 + 1 * (j 1).val = win1_2.index t (1 : Fin 2) * 8 + 1 * (j 1).val; rw [e01, e21]
    have h1 : ((cfg1.win 1).blk t).view.emb k = k := by
      funext a; apply Fin.ext
      match a with
      | ⟨0, _⟩ => show win1_1.index t (0 : Fin 2) * 1 + 1 * (k 0).val = (k 0).val; rw [e10]; omega
      | ⟨1, _⟩ => show win1_1.index t (1 : Fin 2) * 8 + 1 * (k 1).val = (k 1).val; rw [e11]; omega
    show FloatOps.maximumf (F := Ideal) (φ := .f32) (FloatOps.addf (F := Ideal) (φ := .f32) (V c main_v42 (((cfg1.win 0).blk t).view.emb j)) (V c main_v43 (((cfg1.win 1).blk t).view.emb k))) (FloatOps.ofBits (F := Ideal) .f32 0x00000000#32) = _
    rw [h0, h1]
  · show (k 1).val = win1_2.index t (1 : Fin 2) * 8 + 1 * (j 1).val
    rw [e21, hk1]; omega

/-- What point t writes back is block t of the specification of the two arrays. -/
theorem biasRelu_flushed_eq (c : Dev nD) (t : Fin cfg1.N) :
    (dat1 (F := Ideal) V c).flushed 2 t
      = ((cfg1.win 2).blk t).view.read (Elt Ideal) (Cert.ReferenceIdeal.Hand.biasRelu (F := Ideal) (V c main_v42) (V c main_v43)) := by
  show (cfg1.win 2).cut (grid1.coords t) ((dat1 V c).after 2 t) = _
  rw [after1_2]
  unfold out1_2
  rw [View.canon_unit_zero biasRelu_zeroOffsets]
  simp only [View.ld_unit_zero (S := S10000x8) biasRelu_zeroOffsets, View.ld_unit_zero (S := S1x8) biasRelu_zeroOffsets]
  funext j
  exact biasRelu_flushed_entry V c t j

/-- An entry of the array is in point t's block iff each coordinate is in the block's range on its axis. -/
theorem biasRelu_mem_block (t : Fin cfg1.N) (i : S1000000x8.Idx) :
    i ∈ ((cfg1.win 2).blk t).view.set ↔ ∀ a : Fin 2, win1_2.index t a * S10000x8.size a ≤ (i a).val ∧ (i a).val < win1_2.index t a * S10000x8.size a + S10000x8.size a := by
  show i ∈ ((View.whole main_v44).slice (win1_2.rect t)).set ↔ _
  rw [View.set_slice_whole, Rect.mem_set_unit]
  exact Iff.rfl

/-- The 100 blocks of 10000 rows tile the array: row r is in the block of point r / 10000. -/
theorem biasRelu_covered (i : S1000000x8.Idx) :
    ∃ t : Fin cfg1.N, (cfg1.win 2).flush t = true ∧ i ∈ ((cfg1.win 2).blk t).view.set := by
  have hi0 : (i 0).val < 1000000 := (i 0).isLt
  have hi1 : (i 1).val < 8 := (i 1).isLt
  obtain ⟨t, ht⟩ : ∃ t : Fin cfg1.N, t.val = (i 0).val / 10000 :=
    ⟨⟨(i 0).val / 10000, by rw [show cfg1.N = 100 from N_1]; omega⟩, rfl⟩
  obtain ⟨e00, e01, e10, e11, e20, e21⟩ := biasRelu_blockIndex t
  refine ⟨t, flush1_2 t, ?_⟩
  rw [biasRelu_mem_block]
  intro a
  match a with
  | ⟨0, _⟩ => show win1_2.index t (0 : Fin 2) * 10000 ≤ (i 0).val ∧ (i 0).val < win1_2.index t (0 : Fin 2) * 10000 + 10000; rw [e20, ht]; omega
  | ⟨1, _⟩ => show win1_2.index t (1 : Fin 2) * 8 ≤ (i 1).val ∧ (i 1).val < win1_2.index t (1 : Fin 2) * 8 + 8; rw [e21]; omega

/-- After the region its result array is max (a + b, 0) of the two arrays it was entered with. -/
theorem biasRelu_array (c : Dev nD) :
    (dat1 (F := Ideal) V c).arrAt 2 cfg1.N
      = Cert.ReferenceIdeal.Hand.biasRelu (F := Ideal) (V c main_v42) (V c main_v43) := by
  exact (dat1 V c).arrAt_eq_of_cover 2 _ (fun t _ => biasRelu_flushed_eq V c t) biasRelu_covered

end Cert.KernelIdeal.Hand.BiasRelu

end
-- ==== Proof.Linear2.lean ====
/-
  The second dense layer's pallas_call: 100 grid points, point t multiplying rows 10000·t … of h ([1000000,8]) by the whole of
  W2 ([8,2]). At Ideal the result array after the region is h · W2.
-/
import proofs.«154451_j66357244723265_1_alg».proof.Proof.Gen.KernelIdeal.Frame
import proofs.«154451_j66357244723265_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.Linear2

open Cert.KernelIdeal Cert.KernelIdeal.Gen

/-! ## The block product at an entry

  Point t's payload is the [10000,8] block of h times the whole [8,2] array: entry (p, q) is Σ_k (block p k) · (w k q),
  k over the eight contracted columns (the narrowing of both operands changes nothing at the ideal values, the accumulator
  is the zero splat, and the shape cast is to the same shape). -/

/-- The left operand of the block product is read at the result's row … -/
theorem linear2_block_lhs_row (j : S10000x2.Idx) (s : dot_S10000x8_S8x2_S10000x2_1_0_0_1_n_n.contr.Idx) :
    (dot_S10000x8_S8x2_S10000x2_1_0_0_1_n_n.lhsIdx j s 0).val = (j 0).val := by
  unfold DotDims.lhsIdx
  rw [dif_neg (show ¬(0 : Fin S10000x8.rank) ∈ dot_S10000x8_S8x2_S10000x2_1_0_0_1_n_n.lhsBatch by decide), dif_pos (show (0 : Fin S10000x8.rank) ∈ dot_S10000x8_S8x2_S10000x2_1_0_0_1_n_n.lhsNonContracting by decide)]
  rfl
/-- … and at the contracted column; … -/
theorem linear2_block_lhs_col (j : S10000x2.Idx) (s : dot_S10000x8_S8x2_S10000x2_1_0_0_1_n_n.contr.Idx) :
    (dot_S10000x8_S8x2_S10000x2_1_0_0_1_n_n.lhsIdx j s 1).val = (s ⟨0, by decide⟩).val :=
  dot_S10000x8_S8x2_S10000x2_1_0_0_1_n_n.lhsIdx_val_of_single rfl j s
/-- … the right operand at the contracted row … -/
theorem linear2_block_rhs_row (j : S10000x2.Idx) (s : dot_S10000x8_S8x2_S10000x2_1_0_0_1_n_n.contr.Idx) :
    (dot_S10000x8_S8x2_S10000x2_1_0_0_1_n_n.rhsIdx j s 0).val = (s ⟨0, by decide⟩).val :=
  dot_S10000x8_S8x2_S10000x2_1_0_0_1_n_n.rhsIdx_val_of_single rfl j s
/-- … and at the result's column. -/
theorem linear2_block_rhs_col (j : S10000x2.Idx) (s : dot_S10000x8_S8x2_S10000x2_1_0_0_1_n_n.contr.Idx) :
    (dot_S10000x8_S8x2_S10000x2_1_0_0_1_n_n.rhsIdx j s 1).val = (j 1).val := by
  unfold DotDims.rhsIdx
  rw [dif_neg (show ¬(1 : Fin S8x2.rank) ∈ dot_S10000x8_S8x2_S10000x2_1_0_0_1_n_n.rhsBatch by decide), dif_pos (show (1 : Fin S8x2.rank) ∈ dot_S10000x8_S8x2_S10000x2_1_0_0_1_n_n.rhsNonContracting by decide)]
  rfl

/-- Entry (p, q) of the block product: Σ_k x0 (p, k) · x1 (k, q). -/
theorem linear2_block_apply (x0 : Vec Ideal S10000x8 .f32) (x1 : Vec Ideal S8x2 .f32) (p : Fin 10000) (q : Fin 2) :
    k2_pay1 (F := Ideal) x0 x1 (ValueIdx.ix2 p q) = ∑ k : Fin 8, x0 (ValueIdx.ix2 p k) * x1 (ValueIdx.ix2 k q) := by
  unfold k2_pay1
  refine (Ideal.matmul_constant_zero_apply dot_S10000x8_S8x2_S10000x2_1_0_0_1_n_n none _ _ (ValueIdx.ix2 p q)).trans ?_
  rw [← Equiv.sum_comp (ValueIdx.contrEquiv1 dot_S10000x8_S8x2_S10000x2_1_0_0_1_n_n 8 rfl rfl).symm]
  refine Finset.sum_congr rfl fun k _ => ?_
  have hk := ValueIdx.contrEquiv1_symm_val dot_S10000x8_S8x2_S10000x2_1_0_0_1_n_n 8 rfl rfl k
  have el : dot_S10000x8_S8x2_S10000x2_1_0_0_1_n_n.lhsIdx (ValueIdx.ix2 p q) ((ValueIdx.contrEquiv1 dot_S10000x8_S8x2_S10000x2_1_0_0_1_n_n 8 rfl rfl).symm k) = ValueIdx.ix2 p k := funext fun a => Fin.ext (by
    match a with
    | ⟨0, _⟩ => exact linear2_block_lhs_row _ _
    | ⟨1, _⟩ => exact (linear2_block_lhs_col _ _).trans hk)
  have er : dot_S10000x8_S8x2_S10000x2_1_0_0_1_n_n.rhsIdx (ValueIdx.ix2 p q) ((ValueIdx.contrEquiv1 dot_S10000x8_S8x2_S10000x2_1_0_0_1_n_n 8 rfl rfl).symm k) = ValueIdx.ix2 k q := funext fun a => Fin.ext (by
    match a with
    | ⟨0, _⟩ => exact (linear2_block_rhs_row _ _).trans hk
    | ⟨1, _⟩ => exact linear2_block_rhs_col _ _)
  rw [el, er, shapeCast_self]
  rfl

/-! ## The whole-array product at an entry

  Entry (r, q) of h · w is Σ_k h (r, k) · w (k, q): the host's product at the ideal values is that sum. -/

/-- The left array is read at the result's row … -/
theorem linear2_array_lhs_row (i : Cert.ReferenceIdeal.S1000000x2.Idx) (s : Cert.ReferenceIdeal.dot_S1000000x8_S8x2_S1000000x2_1_0_0_1_n_n.contr.Idx) :
    (Cert.ReferenceIdeal.dot_S1000000x8_S8x2_S1000000x2_1_0_0_1_n_n.lhsIdx i s 0).val = (i 0).val := by
  unfold DotDims.lhsIdx
  rw [dif_neg (show ¬(0 : Fin Cert.ReferenceIdeal.S1000000x8.rank) ∈ Cert.ReferenceIdeal.dot_S1000000x8_S8x2_S1000000x2_1_0_0_1_n_n.lhsBatch by decide), dif_pos (show (0 : Fin Cert.ReferenceIdeal.S1000000x8.rank) ∈ Cert.ReferenceIdeal.dot_S1000000x8_S8x2_S1000000x2_1_0_0_1_n_n.lhsNonContracting by decide)]
  rfl
/-- … and at the contracted column; … -/
theorem linear2_array_lhs_col (i : Cert.ReferenceIdeal.S1000000x2.Idx) (s : Cert.ReferenceIdeal.dot_S1000000x8_S8x2_S1000000x2_1_0_0_1_n_n.contr.Idx) :
    (Cert.ReferenceIdeal.dot_S1000000x8_S8x2_S1000000x2_1_0_0_1_n_n.lhsIdx i s 1).val = (s ⟨0, by decide⟩).val :=
  Cert.ReferenceIdeal.dot_S1000000x8_S8x2_S1000000x2_1_0_0_1_n_n.lhsIdx_val_of_single rfl i s
/-- … the right array at the contracted row … -/
theorem linear2_array_rhs_row (i : Cert.ReferenceIdeal.S1000000x2.Idx) (s : Cert.ReferenceIdeal.dot_S1000000x8_S8x2_S1000000x2_1_0_0_1_n_n.contr.Idx) :
    (Cert.ReferenceIdeal.dot_S1000000x8_S8x2_S1000000x2_1_0_0_1_n_n.rhsIdx i s 0).val = (s ⟨0, by decide⟩).val :=
  Cert.ReferenceIdeal.dot_S1000000x8_S8x2_S1000000x2_1_0_0_1_n_n.rhsIdx_val_of_single rfl i s
/-- … and at the result's column. -/
theorem linear2_array_rhs_col (i : Cert.ReferenceIdeal.S1000000x2.Idx) (s : Cert.ReferenceIdeal.dot_S1000000x8_S8x2_S1000000x2_1_0_0_1_n_n.contr.Idx) :
    (Cert.ReferenceIdeal.dot_S1000000x8_S8x2_S1000000x2_1_0_0_1_n_n.rhsIdx i s 1).val = (i 1).val := by
  unfold DotDims.rhsIdx
  rw [dif_neg (show ¬(1 : Fin Cert.ReferenceIdeal.S8x2.rank) ∈ Cert.ReferenceIdeal.dot_S1000000x8_S8x2_S1000000x2_1_0_0_1_n_n.rhsBatch by decide), dif_pos (show (1 : Fin Cert.ReferenceIdeal.S8x2.rank) ∈ Cert.ReferenceIdeal.dot_S1000000x8_S8x2_S1000000x2_1_0_0_1_n_n.rhsNonContracting by decide)]
  rfl

/-- Entry (r, q) of h · w: Σ_k h (r, k) · w (k, q). -/
theorem linear2_array_apply (h : (⟨S1000000x8, .f32⟩ : BufTy).Contents (Elt Ideal)) (w : (⟨S8x2, .f32⟩ : BufTy).Contents (Elt Ideal))
    (r : Fin 1000000) (q : Fin 2) :
    Cert.ReferenceIdeal.Hand.linear2 (F := Ideal) h w (ValueIdx.ix2 r q) = ∑ k : Fin 8, h (ValueIdx.ix2 r k) * w (ValueIdx.ix2 k q) := by
  unfold Cert.ReferenceIdeal.Hand.linear2
  simp only [Host.dotGeneral]
  refine (Ideal.dotGeneral_apply Cert.ReferenceIdeal.dot_S1000000x8_S8x2_S1000000x2_1_0_0_1_n_n none _ _ _ (ValueIdx.ix2 r q)).trans ?_
  rw [← Equiv.sum_comp (ValueIdx.contrEquiv1 Cert.ReferenceIdeal.dot_S1000000x8_S8x2_S1000000x2_1_0_0_1_n_n 8 rfl rfl).symm]
  refine Finset.sum_congr rfl fun k _ => ?_
  have hk := ValueIdx.contrEquiv1_symm_val Cert.ReferenceIdeal.dot_S1000000x8_S8x2_S1000000x2_1_0_0_1_n_n 8 rfl rfl k
  have el : Cert.ReferenceIdeal.dot_S1000000x8_S8x2_S1000000x2_1_0_0_1_n_n.lhsIdx (ValueIdx.ix2 r q) ((ValueIdx.contrEquiv1 Cert.ReferenceIdeal.dot_S1000000x8_S8x2_S1000000x2_1_0_0_1_n_n 8 rfl rfl).symm k) = ValueIdx.ix2 r k := funext fun a => Fin.ext (by
    match a with
    | ⟨0, _⟩ => exact linear2_array_lhs_row _ _
    | ⟨1, _⟩ => exact (linear2_array_lhs_col _ _).trans hk)
  have er : Cert.ReferenceIdeal.dot_S1000000x8_S8x2_S1000000x2_1_0_0_1_n_n.rhsIdx (ValueIdx.ix2 r q) ((ValueIdx.contrEquiv1 Cert.ReferenceIdeal.dot_S1000000x8_S8x2_S1000000x2_1_0_0_1_n_n 8 rfl rfl).symm k) = ValueIdx.ix2 k q := funext fun a => Fin.ext (by
    match a with
    | ⟨0, _⟩ => exact (linear2_array_rhs_row _ _).trans hk
    | ⟨1, _⟩ => exact linear2_array_rhs_col _ _)
  rw [el, er]

-- the TensorCore's buffer contents when the region is entered (any: the region's value is a function of them)
variable (V : (c : Dev nD) → (b : Ref sig .tc) → Buf (Elt Ideal) ((c : Thread nD τ).loc b))

/-! ## From the blocks to the array

  Point t reads rows 10000·t … 10000·t + 9999 of h and the whole of w, and writes the same rows of the result. -/

/-- The offsets of a block loaded or stored whole are zero on both axes. -/
theorem linear2_zero_offsets : (![0, 0] : Fin 2 → Nat) = fun _ => 0 := funext fun a => by
  match a with
  | ⟨0, _⟩ => rfl
  | ⟨1, _⟩ => rfl

/-- The index maps over the grid: point t takes row block t of h and of the result, and the one block of w. -/
theorem linear2_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of h at point t is rows 10000·t … of h. -/
theorem linear2_lhs_block (c : Dev nD) (t : Fin cfg2.N) (x : S10000x8.Idx) (i : S1000000x8.Idx)
    (h0 : (i 0).val = t.val * 10000 + (x 0).val) (h1 : (i 1).val = (x 1).val) :
    (iblk2 V c 0 t : Vec Ideal S10000x8 .f32) x = (V c main_v44 : S1000000x8.Idx → Elt Ideal .f32) i := by
  obtain ⟨e00, e01, -, -, -, -⟩ := linear2_index_maps t
  unfold iblk2
  rw [View.read_apply]
  show V c main_v44 _ = V c main_v44 _
  congr 1
  funext a
  apply Fin.ext
  match a with
  | ⟨0, _⟩ => show win2_0.index t (0 : Fin 2) * 10000 + 1 * (x 0).val = (i 0).val; rw [e00, h0]; omega
  | ⟨1, _⟩ => show win2_0.index t (1 : Fin 2) * 8 + 1 * (x 1).val = (i 1).val; rw [e01, h1]; omega

/-- The block of w at every point is w. -/
theorem linear2_rhs_block (c : Dev nD) (t : Fin cfg2.N) (x : S8x2.Idx) :
    (iblk2 V c 1 t : Vec Ideal S8x2 .f32) x = (V c main_arg4 : S8x2.Idx → Elt Ideal .f32) x := by
  obtain ⟨-, -, e10, e11, -, -⟩ := linear2_index_maps t
  unfold iblk2
  rw [View.read_apply]
  show V c main_arg4 _ = V c main_arg4 _
  congr 1
  funext a
  apply Fin.ext
  match a with
  | ⟨0, _⟩ => show win2_1.index t (0 : Fin 2) * 8 + 1 * (x 0).val = (x 0).val; rw [e10]; omega
  | ⟨1, _⟩ => show win2_1.index t (1 : Fin 2) * 2 + 1 * (x 1).val = (x 1).val; rw [e11]; omega

/-- What point t writes back is block t of h · w. -/
theorem linear2_flushed (c : Dev nD) (t : Fin cfg2.N) :
    (dat2 (F := Ideal) V c).flushed 2 t = ((cfg2.win 2).blk t).view.read (Elt Ideal)
      (Cert.ReferenceIdeal.Hand.linear2 (F := Ideal) (V c main_v44) (V c main_arg4)) := by
  show (cfg2.win 2).cut (grid2.coords t) ((dat2 V c).after 2 t) = _
  rw [after2_2]
  unfold out2_2
  rw [View.canon_unit_zero linear2_zero_offsets]
  simp only [View.ld_unit_zero (S := S10000x8) linear2_zero_offsets, View.ld_unit_zero (S := S8x2) linear2_zero_offsets]
  obtain ⟨-, -, -, -, e20, e21⟩ := linear2_index_maps t
  have ht : t.val < 100 := lt_of_lt_of_eq t.isLt N_2
  funext j
  have hp : (j 0).val < 10000 := (j 0).isLt
  have hq : (j 1).val < 2 := (j 1).isLt
  show k2_pay1 (F := Ideal) (iblk2 V c 0 t) (iblk2 V c 1 t) j
    = Cert.ReferenceIdeal.Hand.linear2 (F := Ideal) (V c main_v44) (V c main_arg4) (((cfg2.win 2).blk t).view.emb j)
  have hj : ((cfg2.win 2).blk t).view.emb j = ValueIdx.ix2 (⟨t.val * 10000 + (j 0).val, by omega⟩ : Fin 1000000) (⟨(j 1).val, hq⟩ : Fin 2) := by
    funext a
    apply Fin.ext
    match a with
    | ⟨0, _⟩ => show win2_2.index t (0 : Fin 2) * 10000 + 1 * (j 0).val = t.val * 10000 + (j 0).val; rw [e20]; omega
    | ⟨1, _⟩ => show win2_2.index t (1 : Fin 2) * 2 + 1 * (j 1).val = (j 1).val; rw [e21]; omega
  rw [hj, linear2_array_apply]
  refine (congrArg (k2_pay1 (F := Ideal) (iblk2 V c 0 t) (iblk2 V c 1 t)) (ValueIdx.eq_ix2 j)).trans ?_
  refine (linear2_block_apply (iblk2 V c 0 t) (iblk2 V c 1 t) ⟨(j 0).val, hp⟩ ⟨(j 1).val, hq⟩).trans ?_
  refine Finset.sum_congr rfl fun k _ => ?_
  rw [linear2_lhs_block V c t _ (ValueIdx.ix2 (⟨t.val * 10000 + (j 0).val, by omega⟩ : Fin 1000000) k) rfl rfl,
    linear2_rhs_block V c t]

/-- An entry of the result is in point t's block iff each coordinate is in the block's range on its axis. -/
theorem linear2_mem_block (t : Fin cfg2.N) (i : S1000000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v45).slice (win2_2.rect t)).set ↔ _
  rw [View.set_slice_whole, Rect.mem_set_unit]
  exact Iff.rfl

/-- Every entry of the result is in some point's block: row r is in point r / 10000's. -/
theorem linear2_cover (i : S1000000x2.Idx) :
    ∃ t : Fin cfg2.N, (cfg2.win 2).flush t = true ∧ i ∈ ((cfg2.win 2).blk t).view.set := by
  have hi0 : (i 0).val < 1000000 := (i 0).isLt
  have hi1 : (i 1).val < 2 := (i 1).isLt
  have hN : cfg2.N = 100 := N_2
  have hlt : (i 0).val / 10000 < cfg2.N := by rw [hN]; omega
  obtain ⟨-, -, -, -, e20, e21⟩ := linear2_index_maps ⟨(i 0).val / 10000, hlt⟩
  refine ⟨⟨(i 0).val / 10000, hlt⟩, flush2_2 _, ?_⟩
  rw [linear2_mem_block]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win2_2.index ⟨(i 0).val / 10000, hlt⟩ (1 : Fin 2) * 2 ≤ (i 1).val
      ∧ (i 1).val < win2_2.index ⟨(i 0).val / 10000, hlt⟩ (1 : Fin 2) * 2 + 2
    rw [e21]
    omega

/-- After the region its result array is the product of the two arrays it was entered with. -/
theorem linear2_array (c : Dev nD) :
    (dat2 (F := Ideal) V c).arrAt 2 cfg2.N
      = Cert.ReferenceIdeal.Hand.linear2 (F := Ideal) (V c main_v44) (V c main_arg4) := by
  exact (dat2 (F := Ideal) V c).arrAt_eq_of_cover 2 _ (fun t _ => linear2_flushed V c t) linear2_cover

end Cert.KernelIdeal.Hand.Linear2

end
-- ==== Proof.LogSoftmax.lean ====
/-
  The second layer's epilogue: 100 grid points, point t taking rows 10000·t … of the aggregated array ([1000000,2]) and the whole
  [1,2] bias row, and writing the row-wise log-softmax of their sum into the same rows. A row's two entries are all the
  kernel's lane maximum and lane sum range over, so block by block the kernel computes what `biasLogSoftmax` does row by row.
-/
import proofs.«154451_j66357244723265_1_alg».proof.Proof.Gen.KernelIdeal.Frame
import proofs.«154451_j66357244723265_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.LogSoftmax

open Cert.KernelIdeal Cert.KernelIdeal.Gen

-- the TensorCore's buffer contents when the region is entered (any: the region's value is a function of them)
variable (V : (c : Dev nD) → (b : Ref sig .tc) → Buf (Elt Ideal) ((c : Thread nD τ).loc b))

section Aux

open Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- −∞ as the program spells it. -/
theorem negInf_eq_bot : Ideal.ofBits .f32 0xFF800000#32 = ⊥ := by simp [Ideal.ofBits, Ideal.ieee]

/-- The log-softmax of a row of two entries, at entry `q`: the entry less the row's maximum (the fold of `max` from −∞), less
    the logarithm of the sum of the exponentials of the row's entries so shifted. -/
def rowLsm (z : Fin 2 → EReal) (q : Fin 2) : EReal :=
  (z q - (Finset.univ : Finset (Fin 2)).fold max (Ideal.ofBits .f32 0xFF800000#32) z)
    - Ideal.log (∑ k : Fin 2, Ideal.exp (z k - (Finset.univ : Finset (Fin 2)).fold max (Ideal.ofBits .f32 0xFF800000#32) z))

section KernelSide

/-- A row's index of the block with the lane coordinate put back in. -/
theorem lift_eq (p : Fin 10000) (k : Fin 2) : reduces_S10000x2_S10000.lift (ix1 p) k = ix2 p k :=
  funext fun a => Fin.ext (by match a with | ⟨0, _⟩ => rfl | ⟨1, _⟩ => rfl)

/-- A row's maximum as the kernel takes it: the fold of `max` from −∞ over the row's two entries. -/
theorem rowmax_apply (v : FVec Ideal S10000x2 .f32) (p : Fin 10000) :
    multiReduction .maximumf [1] S10000 v 0xFF800000#32 reduces_S10000x2_S10000 (.inl rfl) rfl (ix1 p)
      = (Finset.univ : Finset (Fin 2)).fold max (Ideal.ofBits .f32 0xFF800000#32) (fun k : Fin 2 => v (ix2 p k)) :=
  (Ideal.multiReduction_maximumf_single v _ reduces_S10000x2_S10000 _ _ (ix1 p)).trans
    (congrArg (fun f => Finset.fold max (Ideal.ofBits .f32 0xFF800000#32) f (Finset.univ : Finset (Fin 2)))
      (funext fun k => congrArg v (lift_eq p k)))

/-- A row's sum as the kernel takes it: the sum of the row's two entries. -/
theorem rowsum_apply (v : FVec Ideal S10000x2 .f32) (p : Fin 10000) :
    multiReduction .add [1] S10000 v 0x00000000#32 reduces_S10000x2_S10000 (.inl rfl) rfl (ix1 p)
      = ∑ k : Fin 2, v (ix2 p k) :=
  (Ideal.multiReduction_add_single v _ reduces_S10000x2_S10000 _ _ (ix1 p)).trans
    (Finset.sum_congr rfl fun k _ => congrArg v (lift_eq p k))

/-- A per-row value laid along the row again (the kernel's keep-dims): every entry of row `p` reads the row's value. -/
theorem keep_apply (v : FVec Ideal S10000 .f32) (p : Fin 10000) (q : Fin 2) :
    broadcastTo S10000x2 (shapeCast S10000x1 v shapeCasts_S10000_S10000x1) broadcasts_S10000x1_S10000x2 (ix2 p q) = v (ix1 p) :=
  (broadcastTo_a1_ab_apply _ _ p q).trans (shapeCast_a_a1_apply v _ p 0)

/-- The same with the logarithm taken on the column in between. -/
theorem keepLog_apply (v : FVec Ideal S10000 .f32) (p : Fin 10000) (q : Fin 2) :
    broadcastTo S10000x2 (log (shapeCast S10000x1 v shapeCasts_S10000_S10000x1)) broadcasts_S10000x1_S10000x2 (ix2 p q)
      = Ideal.log (v (ix1 p)) :=
  (broadcastTo_a1_ab_apply _ _ p q).trans (congrArg Ideal.log (shapeCast_a_a1_apply v _ p 0))

/-- The block of a + b: the bias block's one row added to every row. -/
def zvec (x0 : FVec Ideal S10000x2 .f32) (x1 : FVec Ideal S1x2 .f32) : FVec Ideal S10000x2 .f32 :=
  addf (shapeCast S10000x2 x0 shapeCasts_S10000x2_S10000x2)
    (broadcastTo S10000x2 (shapeCast S1x2 x1 shapeCasts_S1x2_S1x2) broadcasts_S1x2_S10000x2)

theorem zvec_apply (x0 : FVec Ideal S10000x2 .f32) (x1 : FVec Ideal S1x2 .f32) (p : Fin 10000) (k : Fin 2) :
    zvec x0 x1 (ix2 p k) = x0 (ix2 p k) + x1 (ix2 (0 : Fin 1) k) := by
  unfold zvec
  rw [shapeCast_self, shapeCast_self, addf_apply]
  exact congrArg (x0 (ix2 p k) + ·) (broadcastTo_1b_ab_apply x1 _ p k)

/-- A block with each row's maximum taken off. -/
def svec (z : FVec Ideal S10000x2 .f32) : FVec Ideal S10000x2 .f32 :=
  subf z (broadcastTo S10000x2 (shapeCast S10000x1
    (multiReduction .maximumf [1] S10000 z 0xFF800000#32 reduces_S10000x2_S10000 (.inl rfl) rfl) shapeCasts_S10000_S10000x1)
    broadcasts_S10000x1_S10000x2)

theorem svec_apply (z : FVec Ideal S10000x2 .f32) (p : Fin 10000) (q : Fin 2) :
    svec z (ix2 p q) = z (ix2 p q)
      - (Finset.univ : Finset (Fin 2)).fold max (Ideal.ofBits .f32 0xFF800000#32) (fun k : Fin 2 => z (ix2 p k)) :=
  congrArg (z (ix2 p q) - ·) ((keep_apply _ p q).trans (rowmax_apply z p))

/-- The logarithm of each row's sum of exponentials, laid along the row. -/
def lvec (s : FVec Ideal S10000x2 .f32) : FVec Ideal S10000x2 .f32 :=
  broadcastTo S10000x2 (log (shapeCast S10000x1
    (multiReduction .add [1] S10000 (exp s) 0x00000000#32 reduces_S10000x2_S10000 (.inl rfl) rfl) shapeCasts_S10000_S10000x1))
    broadcasts_S10000x1_S10000x2

theorem lvec_apply (s : FVec Ideal S10000x2 .f32) (p : Fin 10000) (q : Fin 2) :
    lvec s (ix2 p q) = Ideal.log (∑ k : Fin 2, Ideal.exp (s (ix2 p k))) :=
  (keepLog_apply _ p q).trans (congrArg Ideal.log (rowsum_apply (exp s) p))

/-- The payload is those three steps composed. -/
theorem pay_eq (x0 : FVec Ideal S10000x2 .f32) (x1 : FVec Ideal S1x2 .f32) :
    k3_pay1 (F := Ideal) x0 x1 = subf (svec (zvec x0 x1)) (lvec (svec (zvec x0 x1))) := rfl

/-- THE PAYLOAD AT AN ENTRY: the log-softmax of the row of the block of a + b. -/
theorem pay_apply (x0 : FVec Ideal S10000x2 .f32) (x1 : FVec Ideal S1x2 .f32) (p : Fin 10000) (q : Fin 2) :
    k3_pay1 (F := Ideal) x0 x1 (ix2 p q) = rowLsm (fun k => x0 (ix2 p k) + x1 (ix2 (0 : Fin 1) k)) q := by
  have hZ : (fun k : Fin 2 => zvec x0 x1 (ix2 p k)) = fun k => x0 (ix2 p k) + x1 (ix2 (0 : Fin 1) k) :=
    funext fun k => zvec_apply x0 x1 p k
  rw [← hZ, pay_eq]
  generalize zvec x0 x1 = Z
  rw [subf_apply, lvec_apply, svec_apply]
  unfold rowLsm
  exact congrArg (_ - Ideal.log ·) (Finset.sum_congr rfl fun k _ => congrArg Ideal.exp (svec_apply Z p k))

end KernelSide

section HostSide

/-- −∞ joined with anything is that thing. -/
theorem negInf_max (x : EReal) : max (Ideal.ofBits .f32 0xFF800000#32) x = x := by
  rw [negInf_eq_bot]; exact max_eq_right bot_le

/-- The host's a + b at an entry: b's one row added. -/
theorem host_z_apply (a : FVec Ideal Cert.ReferenceIdeal.S1000000x2 .f32) (b : FVec Ideal Cert.ReferenceIdeal.S1x2 .f32) (r : Fin 1000000) (k : Fin 2) :
    addf a (broadcastInDim Cert.ReferenceIdeal.S1000000x2 ![0, 1] Cert.ReferenceIdeal.Gen.bcast_S1x2_S1000000x2_0_1 b) (ix2 r k)
      = a (ix2 r k) + b (ix2 (0 : Fin 1) k) := by
  refine congrArg (a (ix2 r k) + ·) (broadcastInDim_apply _ _ b (ix2 r k) (ix2 (0 : Fin 1) k) fun ax => ?_)
  match ax with
  | ⟨0, _⟩ => show 0 = if (1 : Nat) = 1 then 0 else r.val; rw [if_pos rfl]
  | ⟨1, _⟩ => show k.val = if (2 : Nat) = 1 then 0 else k.val; rw [if_neg (by decide)]

/-- The host's keep-dims, a per-row value broadcast to a column and the column along the rows: every entry of row `r` reads
    the row's value. -/
theorem host_keep_apply (v : FVec Ideal Cert.ReferenceIdeal.S1000000 .f32) (r : Fin 1000000) (q : Fin 2) :
    broadcastInDim Cert.ReferenceIdeal.S1000000x2 ![0, 1] Cert.ReferenceIdeal.Gen.bcast_S1000000x1_S1000000x2_0_1
      (broadcastInDim Cert.ReferenceIdeal.S1000000x1 ![0] Cert.ReferenceIdeal.Gen.bcast_S1000000_S1000000x1_0 v) (ix2 r q) = v (ix1 r) := by
  refine (broadcastInDim_apply _ _ _ (ix2 r q) (ix2 r (0 : Fin 1)) fun ax => ?_).trans
    (broadcastInDim_apply _ _ v (ix2 r (0 : Fin 1)) (ix1 r) fun ax => ?_)
  · match ax with
    | ⟨0, _⟩ => show r.val = if (1000000 : Nat) = 1 then 0 else r.val; rw [if_neg (by decide)]
    | ⟨1, _⟩ => show 0 = if (1 : Nat) = 1 then 0 else q.val; rw [if_pos rfl]
  · match ax with
    | ⟨0, _⟩ => show r.val = if (1000000 : Nat) = 1 then 0 else r.val; rw [if_neg (by decide)]

/-- The same with the logarithm taken on the column in between. -/
theorem host_keepLog_apply (v : FVec Ideal Cert.ReferenceIdeal.S1000000 .f32) (r : Fin 1000000) (q : Fin 2) :
    broadcastInDim Cert.ReferenceIdeal.S1000000x2 ![0, 1] Cert.ReferenceIdeal.Gen.bcast_S1000000x1_S1000000x2_0_1
      (Host.log (broadcastInDim Cert.ReferenceIdeal.S1000000x1 ![0] Cert.ReferenceIdeal.Gen.bcast_S1000000_S1000000x1_0 v)) (ix2 r q)
      = Ideal.log (v (ix1 r)) := by
  refine (broadcastInDim_apply _ _ _ (ix2 r q) (ix2 r (0 : Fin 1)) fun ax => ?_).trans
    (congrArg Ideal.log (broadcastInDim_apply _ _ v (ix2 r (0 : Fin 1)) (ix1 r) fun ax => ?_))
  · match ax with
    | ⟨0, _⟩ => show r.val = if (1000000 : Nat) = 1 then 0 else r.val; rw [if_neg (by decide)]
    | ⟨1, _⟩ => show 0 = if (1 : Nat) = 1 then 0 else q.val; rw [if_pos rfl]
  · match ax with
    | ⟨0, _⟩ => show r.val = if (1000000 : Nat) = 1 then 0 else r.val; rw [if_neg (by decide)]

/-- A row's index of the array with the column coordinate put back in. -/
theorem host_lift_eq (h : Cert.ReferenceIdeal.S1000000x2.Reduces [1] Cert.ReferenceIdeal.S1000000) (r : Fin 1000000) (k : Fin 2) :
    h.lift (ix1 r) k = ix2 r k :=
  funext fun a => Fin.ext (by match a with | ⟨0, _⟩ => rfl | ⟨1, _⟩ => rfl)

/-- −∞ broadcast along the rows reads −∞. -/
theorem host_negInf_apply (i : Cert.ReferenceIdeal.S1000000.Idx) :
    broadcastInDim Cert.ReferenceIdeal.S1000000 ![] Cert.ReferenceIdeal.Gen.bcast_S_S1000000
      (constant (F := Ideal) Cert.ReferenceIdeal.S_ .f32 0xFF800000#32) i = Ideal.ofBits .f32 0xFF800000#32 := rfl

/-- The host's row maximum: the fold of `max` from −∞ over the row's two entries (the second join with −∞ changes nothing). -/
theorem host_rowMax_apply (z : FVec Ideal Cert.ReferenceIdeal.S1000000x2 .f32) (r : Fin 1000000) :
    Cert.ReferenceIdeal.Hand.rowMax (F := Ideal) z (ix1 r)
      = (Finset.univ : Finset (Fin 2)).fold max (Ideal.ofBits .f32 0xFF800000#32) (fun k : Fin 2 => z (ix2 r k)) := by
  unfold Cert.ReferenceIdeal.Hand.rowMax
  rw [maximumf_apply, host_negInf_apply]
  rw [Host.reduce_eq_fold_single (FloatOps.maximumf (F := Ideal) (φ := .f32)) z (constant (F := Ideal) Cert.ReferenceIdeal.S_ .f32 0xFF800000#32) Cert.ReferenceIdeal.Gen.reducesTo_S1000000x2_S1000000_d1 (by decide) Cert.ReferenceIdeal.Gen.h_S_ (ix1 r)]
  refine (negInf_max _).trans ?_
  exact congrArg (fun f => Finset.fold max (Ideal.ofBits .f32 0xFF800000#32) f (Finset.univ : Finset (Fin 2)))
    (funext fun k => congrArg z (host_lift_eq _ r k))

/-- The host's shifted row. -/
theorem host_rowShift_apply (z : FVec Ideal Cert.ReferenceIdeal.S1000000x2 .f32) (r : Fin 1000000) (q : Fin 2) :
    Cert.ReferenceIdeal.Hand.rowShift (F := Ideal) z (ix2 r q) = z (ix2 r q)
      - (Finset.univ : Finset (Fin 2)).fold max (Ideal.ofBits .f32 0xFF800000#32) (fun k : Fin 2 => z (ix2 r k)) := by
  unfold Cert.ReferenceIdeal.Hand.rowShift
  rw [subf_apply, host_keep_apply, host_rowMax_apply]

/-- The host's row sum of exponentials: the initial 0 plus the sum over the row's two entries. -/
theorem host_rowsum_apply (s : FVec Ideal Cert.ReferenceIdeal.S1000000x2 .f32) (r : Fin 1000000) :
    Host.reduceAdd (Host.exp s) (constant (F := Ideal) Cert.ReferenceIdeal.S_ .f32 0x00000000#32)
      Cert.ReferenceIdeal.Gen.reducesTo_S1000000x2_S1000000_d1 Cert.ReferenceIdeal.Gen.h_S_ (ix1 r)
      = ∑ k : Fin 2, Ideal.exp (s (ix2 r k)) := by
  simp only [Host.reduceAdd, Ideal.hostReduceAdd_def]
  rw [Ideal.hostReduceAdd_single Cert.ReferenceIdeal.Gen.reducesTo_S1000000x2_S1000000_d1 (by decide)]
  have h0 : constant (F := Ideal) Cert.ReferenceIdeal.S_ .f32 0x00000000#32 (Shape.Idx.first Cert.ReferenceIdeal.Gen.h_S_) = (0 : EReal) :=
    Ideal.ofBits_zero_f32
  rw [h0]
  refine (zero_add _).trans ?_
  exact Finset.sum_congr rfl fun k _ => congrArg (fun i => Ideal.exp (s i)) (host_lift_eq _ r k)

/-- The host's row-wise log-softmax at an entry. -/
theorem host_lsm_apply (z : FVec Ideal Cert.ReferenceIdeal.S1000000x2 .f32) (r : Fin 1000000) (q : Fin 2) :
    Cert.ReferenceIdeal.Hand.logSoftmaxRows (F := Ideal) z (ix2 r q) = rowLsm (fun k => z (ix2 r k)) q := by
  unfold Cert.ReferenceIdeal.Hand.logSoftmaxRows
  rw [subf_apply, host_keepLog_apply, host_rowsum_apply, host_rowShift_apply]
  unfold rowLsm
  exact congrArg (_ - Ideal.log ·) (Finset.sum_congr rfl fun k _ => congrArg Ideal.exp (host_rowShift_apply z r k))

/-- THE SPECIFICATION AT AN ENTRY: the log-softmax of the row of a + b. -/
theorem host_apply (a : FVec Ideal Cert.ReferenceIdeal.S1000000x2 .f32) (b : FVec Ideal Cert.ReferenceIdeal.S1x2 .f32)
    (r : Fin 1000000) (q : Fin 2) :
    Cert.ReferenceIdeal.Hand.biasLogSoftmax (F := Ideal) a b (ix2 r q)
      = rowLsm (fun k => a (ix2 r k) + b (ix2 (0 : Fin 1) k)) q := by
  unfold Cert.ReferenceIdeal.Hand.biasLogSoftmax
  rw [host_lsm_apply]
  exact congrArg (rowLsm · q) (funext fun k => host_z_apply a b r k)

end HostSide

section Blocks

theorem hz : (![0, 0] : Fin 2 → Nat) = fun _ => 0 := funext fun a => by fin_cases a <;> rfl

/-- The printed index maps, decided over the grid: at point `t` the two row-blocked windows sit at block (t, 0), the bias
    window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point `t` is rows 10000·t … of the array the region was entered with. -/
theorem iblk0_apply (c : Dev nD) (t : Fin cfg3.N) (p : Fin 10000) (k : Fin 2) (r : Fin 1000000)
    (hr : r.val = t.val * 10000 + p.val) :
    (iblk3 V c 0 t : Vec Ideal S10000x2 .f32) (ix2 p k) = (V c main_v58 : S1000000x2.Idx → Elt Ideal .f32) (ix2 r k) := by
  obtain ⟨e0, e1, -⟩ := idx_facts t
  show (V c main_v58 : S1000000x2.Idx → Elt Ideal .f32) (((cfg3.win 0).blk t).view.emb (ix2 p k)) = _
  refine congrArg (V c main_v58 : S1000000x2.Idx → Elt Ideal .f32) (funext fun a => Fin.ext ?_)
  match a with
  | ⟨0, _⟩ => show win3_0.index t (0 : Fin 2) * 10000 + 1 * p.val = r.val; rw [e0, hr]; omega
  | ⟨1, _⟩ => show win3_0.index t (1 : Fin 2) * 2 + 1 * k.val = k.val; rw [e1]; omega

/-- Window 1's block at every point is the whole one-row bias array. -/
theorem iblk1_apply (c : Dev nD) (t : Fin cfg3.N) (k : Fin 2) :
    (iblk3 V c 1 t : Vec Ideal S1x2 .f32) (ix2 (0 : Fin 1) k) = (V c main_v59 : S1x2.Idx → Elt Ideal .f32) (ix2 (0 : Fin 1) k) := by
  obtain ⟨-, -, e2, e3, -⟩ := idx_facts t
  show (V c main_v59 : S1x2.Idx → Elt Ideal .f32) (((cfg3.win 1).blk t).view.emb (ix2 (0 : Fin 1) k)) = _
  refine congrArg (V c main_v59 : S1x2.Idx → Elt Ideal .f32) (funext fun a => Fin.ext ?_)
  match a with
  | ⟨0, _⟩ => show win3_1.index t (0 : Fin 2) * 1 + 1 * 0 = 0; rw [e2]
  | ⟨1, _⟩ => show win3_1.index t (1 : Fin 2) * 2 + 1 * k.val = k.val; rw [e3]; omega

end Blocks

section Array

/-- ONE ENTRY OF A BLOCK: where the input blocks hold the arrays' entries of row `r` (and the bias row), the payload at that row's
    entry `q` is the specification's value at (r, q) — both are the log-softmax of the same row of two entries. -/
theorem block_entry (A : FVec Ideal Cert.ReferenceIdeal.S1000000x2 .f32) (B : FVec Ideal Cert.ReferenceIdeal.S1x2 .f32)
    (x0 : FVec Ideal S10000x2 .f32) (x1 : FVec Ideal S1x2 .f32) (p : Fin 10000) (q : Fin 2) (r : Fin 1000000)
    (h0 : ∀ k : Fin 2, x0 (ix2 p k) = A (ix2 r k))
    (h1 : ∀ k : Fin 2, x1 (ix2 (0 : Fin 1) k) = B (ix2 (0 : Fin 1) k)) :
    k3_pay1 (F := Ideal) x0 x1 (ix2 p q) = Cert.ReferenceIdeal.Hand.biasLogSoftmax (F := Ideal) A B (ix2 r q) := by
  rw [pay_apply, host_apply]
  exact congrArg (rowLsm · q) (funext fun k => congrArg₂ (· + ·) (h0 k) (h1 k))

/-- What point `t` writes back is block `t` of any whole-array function `G` that the payload of the point's input blocks agrees
    with entry by entry, row `p` of the block being row 10000·t + p of the array. -/
theorem flushed_eq_of (c : Dev nD) (t : Fin cfg3.N) (G : S1000000x2.Idx → Elt Ideal .f32)
    (hG : ∀ (p : Fin 10000) (q : Fin 2) (r : Fin 1000000), r.val = t.val * 10000 + p.val →
      k3_pay1 (F := Ideal) (iblk3 V c 0 t) (iblk3 V c 1 t) (ix2 p q) = G (ix2 r q)) :
    (dat3 (F := Ideal) V c).flushed 2 t = ((cfg3.win 2).blk t).view.read (Elt Ideal) G := by
  show (cfg3.win 2).cut (grid3.coords t) ((dat3 (F := Ideal) V c).after 2 t) = _
  rw [after3_2]
  unfold out3_2
  rw [View.canon_unit_zero hz]
  simp only [View.ld_unit_zero (S := S10000x2) hz, View.ld_unit_zero (S := S1x2) hz]
  funext j
  obtain ⟨p, q, rfl⟩ : ∃ (p : Fin 10000) (q : Fin 2), j = ix2 p q := ⟨j 0, j 1, eq_ix2 j⟩
  have ht : t.val < 100 := lt_of_lt_of_eq t.isLt N_3
  obtain ⟨-, -, -, -, e4, e5⟩ := idx_facts t
  have hemb : ((cfg3.win 2).blk t).view.emb (ix2 p q) = ix2 (⟨t.val * 10000 + p.val, by omega⟩ : Fin 1000000) q := by
    funext a; apply Fin.ext
    match a with
    | ⟨0, _⟩ => show win3_2.index t (0 : Fin 2) * 10000 + 1 * p.val = t.val * 10000 + p.val; rw [e4]; omega
    | ⟨1, _⟩ => show win3_2.index t (1 : Fin 2) * 2 + 1 * q.val = q.val; rw [e5]; omega
  show k3_pay1 (F := Ideal) (iblk3 V c 0 t) (iblk3 V c 1 t) (ix2 p q) = G (((cfg3.win 2).blk t).view.emb (ix2 p q))
  rw [hemb]
  exact hG p q _ rfl

/-- WHAT POINT `t` WRITES BACK is block `t` of the row-wise log-softmax of a + b, of the two arrays the region was entered with. -/
theorem flushed_eq (c : Dev nD) (t : Fin cfg3.N) :
    (dat3 (F := Ideal) V c).flushed 2 t = ((cfg3.win 2).blk t).view.read (Elt Ideal)
      (Cert.ReferenceIdeal.Hand.biasLogSoftmax (F := Ideal) (V c main_v58) (V c main_v59)) :=
  flushed_eq_of V c t (Cert.ReferenceIdeal.Hand.biasLogSoftmax (F := Ideal) (V c main_v58) (V c main_v59))
    fun p q r hr => block_entry (V c main_v58) (V c main_v59) (iblk3 V c 0 t) (iblk3 V c 1 t) p q r
      (fun k => iblk0_apply V c t p k r hr) (fun k => iblk1_apply V c t k)

/-- An index of the array is in point `t`'s block iff each coordinate is in the block's range on its axis. -/
theorem mem_blk (t : Fin cfg3.N) (i : S1000000x2.Idx) :
    i ∈ ((cfg3.win 2).blk t).view.set ↔ ∀ a : Fin 2, win3_2.index t a * S10000x2.size a ≤ (i a).val
      ∧ (i a).val < win3_2.index t a * S10000x2.size a + S10000x2.size a := by
  show i ∈ ((View.whole main_v60).slice (win3_2.rect t)).set ↔ _
  rw [View.set_slice_whole, Rect.mem_set_unit]
  exact Iff.rfl

/-- Every entry of the array is in some point's block: row `r` in that of point r / 10000. -/
theorem cover (i : S1000000x2.Idx) :
    ∃ t : Fin cfg3.N, (cfg3.win 2).flush t = true ∧ i ∈ ((cfg3.win 2).blk t).view.set := by
  have hi0 : (i 0).val < 1000000 := (i 0).isLt
  have hi1 : (i 1).val < 2 := (i 1).isLt
  obtain ⟨t, ht⟩ : ∃ t : Fin cfg3.N, t.val = (i 0).val / 10000 :=
    ⟨⟨(i 0).val / 10000, lt_of_lt_of_eq (by omega : (i 0).val / 10000 < 100) N_3.symm⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 2 ≤ (i 1).val ∧ (i 1).val < win3_2.index t (1 : Fin 2) * 2 + 2
    rw [e5]; omega

end Array

end Aux

/-- After the region its result array is the row-wise log-softmax of a + b, of the two arrays it was entered with. -/
theorem biasLogSoftmax_array (c : Dev nD) :
    (dat3 (F := Ideal) V c).arrAt 2 cfg3.N
      = Cert.ReferenceIdeal.Hand.biasLogSoftmax (F := Ideal) (V c main_v58) (V c main_v59) :=
  (dat3 (F := Ideal) V c).arrAt_eq_of_cover 2 _ (fun t _ => flushed_eq V c t) cover

end Cert.KernelIdeal.Hand.LogSoftmax

end
-- ==== Proof.Agreement.lean ====
/-
  The kernel's result array and the reference's, followed side by side through the two programs at Ideal, from launch
  memories that agree on the arguments. The graph's preparation is computed by the same operations on both sides and
  nothing later writes it; each pallas_call leaves in its result array what the reference's dense piece computes on the
  host (x · W1; max (a + b1, 0); h · W2; the row-wise log-softmax of a + b2) of arrays that agree; each aggregation over
  the edges is the same operations applied to arrays that agree. So boundary by boundary the buffers the two programs go
  on to read hold the same arrays, and the last of them is the result.
-/
import proofs.«154451_j66357244723265_1_alg».proof.Proof.Gen.KernelIdeal.Frame
import proofs.«154451_j66357244723265_1_alg».proof.Proof.SharedSteps
import proofs.«154451_j66357244723265_1_alg».proof.Proof.Linear1
import proofs.«154451_j66357244723265_1_alg».proof.Proof.BiasRelu
import proofs.«154451_j66357244723265_1_alg».proof.Proof.Linear2
import proofs.«154451_j66357244723265_1_alg».proof.Proof.LogSoftmax

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in
/-- The kernel's last boundary holds, at the result buffer, what the reference's operations leave at theirs. -/
theorem result_agrees (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5)) :
    W7 m ρ c (Proc.devRef .tc main_v60)
      = StableHlo.after (Cert.ReferenceIdeal.ValueP.ops (F := Ideal)) (StableHlo.launchContents m' c) (Proc.devRef .tc Cert.ReferenceIdeal.main_v64) := by
  rw [Cert.ReferenceIdeal.Hand.ops_B7]
  -- the graph's preparation: the same operations on the same edge list …
  have s1 : W1 m ρ c (Proc.devRef .tc main_v3) = Cert.ReferenceIdeal.Hand.B1 (StableHlo.launchContents m' c) (Proc.devRef .tc Cert.ReferenceIdeal.main_v3) := graph_src (W0 m ρ c) (StableHlo.launchContents m' c) e1.symm
  have d1 : W1 m ρ c (Proc.devRef .tc main_v6) = Cert.ReferenceIdeal.Hand.B1 (StableHlo.launchContents m' c) (Proc.devRef .tc Cert.ReferenceIdeal.main_v6) := graph_dst (W0 m ρ c) (StableHlo.launchContents m' c) e1.symm
  have n1 : W1 m ρ c (Proc.devRef .tc main_v28) = Cert.ReferenceIdeal.Hand.B1 (StableHlo.launchContents m' c) (Proc.devRef .tc Cert.ReferenceIdeal.main_v28) := graph_norm (W0 m ρ c) (StableHlo.launchContents m' c) e1.symm
  -- … which the first pallas_call does not write
  have s2 : W2 m ρ c (Proc.devRef .tc main_v3) = Cert.ReferenceIdeal.Hand.B1 (StableHlo.launchContents m' c) (Proc.devRef .tc Cert.ReferenceIdeal.main_v3) := (W2_of_ne m ρ c main_v3 (by decide)).trans s1
  have d2 : W2 m ρ c (Proc.devRef .tc main_v6) = Cert.ReferenceIdeal.Hand.B1 (StableHlo.launchContents m' c) (Proc.devRef .tc Cert.ReferenceIdeal.main_v6) := (W2_of_ne m ρ c main_v6 (by decide)).trans d1
  have n2 : W2 m ρ c (Proc.devRef .tc main_v28) = Cert.ReferenceIdeal.Hand.B1 (StableHlo.launchContents m' c) (Proc.devRef .tc Cert.ReferenceIdeal.main_v28) := (W2_of_ne m ρ c main_v28 (by decide)).trans n1
  -- the first dense layer: x · W1 on both sides
  have p1 : W2 m ρ c (Proc.devRef .tc main_v29) = Cert.ReferenceIdeal.Hand.B2 (StableHlo.launchContents m' c) (Proc.devRef .tc Cert.ReferenceIdeal.main_v29) := by
    refine (W2_arr m ρ c 2).trans ((Linear1.linear1_array (V1 m ρ) c).trans ?_)
    rw [Cert.ReferenceIdeal.Hand.B2_dense (StableHlo.launchContents m' c), show V1 m ρ c main_arg0 = (m ((c.tc : Thread nD τ).loc main_arg0)) from keep0_arg0 (W0 m ρ c),
      show V1 m ρ c main_arg2 = (m ((c.tc : Thread nD τ).loc main_arg2)) from keep0_arg2 (W0 m ρ c), show (StableHlo.launchContents m' c) (Proc.devRef .tc Cert.ReferenceIdeal.main_arg0) = (m ((c.tc : Thread nD τ).loc main_arg0)) from e0, show (StableHlo.launchContents m' c) (Proc.devRef .tc Cert.ReferenceIdeal.main_arg2) = (m ((c.tc : Thread nD τ).loc main_arg2)) from e2]
  -- aggregated over the edges
  have a1 : W3 m ρ c (Proc.devRef .tc main_v42) = Cert.ReferenceIdeal.Hand.B3 (StableHlo.launchContents m' c) (Proc.devRef .tc Cert.ReferenceIdeal.main_v42) :=
    agg1_step (W2 m ρ c) (Cert.ReferenceIdeal.Hand.B2 (StableHlo.launchContents m' c)) p1 (s2.trans (Cert.ReferenceIdeal.Hand.B2_v3 (StableHlo.launchContents m' c)).symm) (d2.trans (Cert.ReferenceIdeal.Hand.B2_v6 (StableHlo.launchContents m' c)).symm) (n2.trans (Cert.ReferenceIdeal.Hand.B2_v28 (StableHlo.launchContents m' c)).symm)
  -- the first bias as a row
  have b1 : W3 m ρ c (Proc.devRef .tc main_v43) = broadcastInDim Cert.ReferenceIdeal.S1x8 ![1] Cert.ReferenceIdeal.Gen.bcast_S8_S1x8_1 (m ((c.tc : Thread nD τ).loc main_arg3)) := by
    refine (bias1_row (W2 m ρ c)).trans ?_
    rw [show W2 m ρ c (Proc.devRef .tc main_arg3) = (m ((c.tc : Thread nD τ).loc main_arg3)) from (W2_of_ne m ρ c main_arg3 (by decide)).trans (keep0_arg3 (W0 m ρ c))]
  -- the first epilogue: max (a + b1, 0) on both sides
  have h1 : W4 m ρ c (Proc.devRef .tc main_v44) = Cert.ReferenceIdeal.Hand.B4 (StableHlo.launchContents m' c) (Proc.devRef .tc Cert.ReferenceIdeal.main_v46) := by
    refine (W4_arr m ρ c 2).trans ((BiasRelu.biasRelu_array (V3 m ρ) c).trans ?_)
    rw [Cert.ReferenceIdeal.Hand.B4_epilogue (StableHlo.launchContents m' c), show V3 m ρ c main_v42 = _ from a1, show V3 m ρ c main_v43 = _ from b1, show (StableHlo.launchContents m' c) (Proc.devRef .tc Cert.ReferenceIdeal.main_arg3) = (m ((c.tc : Thread nD τ).loc main_arg3)) from e3]
  -- the second dense layer: h · W2 on both sides
  have w4 : V4 m ρ c main_arg4 = (m ((c.tc : Thread nD τ).loc main_arg4)) :=
    (W4_of_ne m ρ c main_arg4 (by decide)).trans ((keep1_arg4 (W2 m ρ c)).trans ((W2_of_ne m ρ c main_arg4 (by decide)).trans (keep0_arg4 (W0 m ρ c))))
  have p2 : W5 m ρ c (Proc.devRef .tc main_v45) = Cert.ReferenceIdeal.Hand.B5 (StableHlo.launchContents m' c) (Proc.devRef .tc Cert.ReferenceIdeal.main_v47) := by
    refine (W5_arr m ρ c 2).trans ((Linear2.linear2_array (V4 m ρ) c).trans ?_)
    rw [Cert.ReferenceIdeal.Hand.B5_dense (StableHlo.launchContents m' c), show V4 m ρ c main_v44 = _ from h1, w4, show (StableHlo.launchContents m' c) (Proc.devRef .tc Cert.ReferenceIdeal.main_arg4) = (m ((c.tc : Thread nD τ).loc main_arg4)) from e4]
  -- the graph's preparation is still there on both sides
  have s5 : W5 m ρ c (Proc.devRef .tc main_v3) = Cert.ReferenceIdeal.Hand.B5 (StableHlo.launchContents m' c) (Proc.devRef .tc Cert.ReferenceIdeal.main_v3) :=
    (W5_of_ne m ρ c main_v3 (by decide)).trans ((W4_of_ne m ρ c main_v3 (by decide)).trans ((keep1_v3 (W2 m ρ c)).trans (s2.trans (Cert.ReferenceIdeal.Hand.B5_v3 (StableHlo.launchContents m' c)).symm)))
  have d5 : W5 m ρ c (Proc.devRef .tc main_v6) = Cert.ReferenceIdeal.Hand.B5 (StableHlo.launchContents m' c) (Proc.devRef .tc Cert.ReferenceIdeal.main_v6) :=
    (W5_of_ne m ρ c main_v6 (by decide)).trans ((W4_of_ne m ρ c main_v6 (by decide)).trans ((keep1_v6 (W2 m ρ c)).trans (d2.trans (Cert.ReferenceIdeal.Hand.B5_v6 (StableHlo.launchContents m' c)).symm)))
  have n5 : W5 m ρ c (Proc.devRef .tc main_v28) = Cert.ReferenceIdeal.Hand.B5 (StableHlo.launchContents m' c) (Proc.devRef .tc Cert.ReferenceIdeal.main_v28) :=
    (W5_of_ne m ρ c main_v28 (by decide)).trans ((W4_of_ne m ρ c main_v28 (by decide)).trans ((keep1_v28 (W2 m ρ c)).trans (n2.trans (Cert.ReferenceIdeal.Hand.B5_v28 (StableHlo.launchContents m' c)).symm)))
  -- aggregated over the edges again
  have a2 : W6 m ρ c (Proc.devRef .tc main_v58) = Cert.ReferenceIdeal.Hand.B6 (StableHlo.launchContents m' c) (Proc.devRef .tc Cert.ReferenceIdeal.main_v60) :=
    agg2_step (W5 m ρ c) (Cert.ReferenceIdeal.Hand.B5 (StableHlo.launchContents m' c)) p2 s5 d5 n5
  -- the second bias as a row
  have b2 : W6 m ρ c (Proc.devRef .tc main_v59) = broadcastInDim Cert.ReferenceIdeal.S1x2 ![1] Cert.ReferenceIdeal.Gen.bcast_S2_S1x2_1 (m ((c.tc : Thread nD τ).loc main_arg5)) := by
    refine (bias2_row (W5 m ρ c)).trans ?_
    rw [show W5 m ρ c (Proc.devRef .tc main_arg5) = (m ((c.tc : Thread nD τ).loc main_arg5)) from
      (W5_of_ne m ρ c main_arg5 (by decide)).trans ((W4_of_ne m ρ c main_arg5 (by decide)).trans ((keep1_arg5 (W2 m ρ c)).trans ((W2_of_ne m ρ c main_arg5 (by decide)).trans (keep0_arg5 (W0 m ρ c)))))]
  -- the second epilogue: the row-wise log-softmax of a + b2 on both sides
  refine (W7_arr m ρ c 2).trans ((LogSoftmax.biasLogSoftmax_array (V6 m ρ) c).trans ?_)
  rw [Cert.ReferenceIdeal.Hand.B7_epilogue (StableHlo.launchContents m' c), show V6 m ρ c main_v58 = _ from a2, show V6 m ρ c main_v59 = _ from b2, show (StableHlo.launchContents m' c) (Proc.devRef .tc Cert.ReferenceIdeal.main_arg5) = (m ((c.tc : Thread nD τ).loc main_arg5)) from e5]

end Cert.KernelIdeal.Hand

end
-- ==== Proof.lean ====
/-
  Two-layer graph convolution with self-loops and symmetric normalisation, ending in a row-wise log-softmax:
      out = logsoftmax ( Â · relu ( Â · (x · W1) + b1 ) · W2 + b2 ),
  Â the aggregation "gather the rows at the edges' sources, scale by the edge's normalisation, add up at the targets".
  The kernel's program computes the two dense products and the two epilogues (bias + relu; bias + log-softmax) in four
  pallas_calls, each over 100 blocks of 10000 rows, and everything about the graph (edge lists, degrees, the aggregation)
  with the same host operations as the reference; the reference computes the dense steps on the host.

  At Ideal the two agree array by array: a product into a zero accumulator is the plain sum over the contracted axis, on a
  block as on the whole array (Linear1, Linear2); the epilogues are row-wise, and a block's rows are the array's rows
  (BiasRelu, LogSoftmax: the −∞ a maximum starts from is the bottom of the extended reals); the graph's operations are
  literally shared (SharedSteps: each stretch of the kernel's program matched with the reference's piece). Agreement walks the
  two programs side by side, boundary by boundary; no law used needs a finite entry, so the precondition is never opened.
  The frames of the two kernel programs are the generated ones; the reference's is its run with the result dropped;
  the idealisation rewrote nothing, so `preserves` has nothing to state.
-/
import proofs.«154451_j66357244723265_1_alg».proof.Defs
import proofs.«154451_j66357244723265_1_alg».proof.Proof.Gen.Kernel
import proofs.«154451_j66357244723265_1_alg».proof.Proof.Gen.Kernel.Skeleton
import proofs.«154451_j66357244723265_1_alg».proof.Proof.Gen.Kernel.Launch
import proofs.«154451_j66357244723265_1_alg».proof.Proof.Gen.Kernel.Points
import proofs.«154451_j66357244723265_1_alg».proof.Proof.Gen.Kernel.Frame
import proofs.«154451_j66357244723265_1_alg».proof.Proof.Gen.KernelIdeal
import proofs.«154451_j66357244723265_1_alg».proof.Proof.Gen.KernelIdeal.Skeleton
import proofs.«154451_j66357244723265_1_alg».proof.Proof.Gen.KernelIdeal.Launch
import proofs.«154451_j66357244723265_1_alg».proof.Proof.Gen.KernelIdeal.Points
import proofs.«154451_j66357244723265_1_alg».proof.Proof.Gen.KernelIdeal.Frame
import proofs.«154451_j66357244723265_1_alg».proof.Proof.Gen.ReferenceIdeal
import proofs.«154451_j66357244723265_1_alg».proof.Proof.Gen.Pre_finite_inputs
import proofs.«154451_j66357244723265_1_alg».proof.Proof.RefRun
import proofs.«154451_j66357244723265_1_alg».proof.Proof.NamedRun
import proofs.«154451_j66357244723265_1_alg».proof.Proof.Agreement
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both programs end with the same result array: the reference's with what its operations leave at its result buffer
    (its run), the kernel's with that same array by `result_agrees`, the two launch memories agreeing on the arguments. -/
theorem algebraic : Cert.algebraic_KernelIdeal_ReferenceIdeal := by
  intro m ρ m' ρ' _ hagree
  refine ⟨fun c => StableHlo.after (Cert.ReferenceIdeal.ValueP.ops (F := Ideal)) (StableHlo.launchContents m' c)
      (Proc.devRef .tc Cert.ReferenceIdeal.main_v64), ?_, Cert.ReferenceIdeal.ValueP.run (F := Ideal) m' ρ'⟩
  refine (θ_run Cert.KernelIdeal.defs _ _).mono (fun _ h c => ⟨(h c).1.trans ?_, (h c).2⟩)
    (Cert.KernelIdeal.GenP.run_named (F := Ideal) m ρ)
  obtain ⟨e0, e1, e2, e3, e4, e5⟩ := hagree c
  exact Cert.KernelIdeal.Hand.result_agrees m ρ m' c e0 e1 e2 e3 e4 e5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
